-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x36 : Shape := ⟨3, ![4096, 3, 36]⟩
abbrev S4096x4096x3 : Shape := ⟨3, ![4096, 4096, 3]⟩
abbrev S36x6 : Shape := ⟨2, ![36, 6]⟩
abbrev S6 : Shape := ⟨1, ![6]⟩
abbrev S18x256 : Shape := ⟨2, ![18, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S4096x3x36 : S_.BroadcastsInDim S4096x3x36 (![] : Fin 0 → Fin S4096x3x36.rank)
  reducesTo_S4096x3x36_S_d0_1_2 : S4096x3x36.ReducesTo [0, 1, 2] S_
  h_S_ : 0 < S_.numel
  bcast_S_S4096x4096x3 : S_.BroadcastsInDim S4096x4096x3 (![] : Fin 0 → Fin S4096x4096x3.rank)
  reducesTo_S4096x4096x3_S_d0_1_2 : S4096x4096x3.ReducesTo [0, 1, 2] S_
  bcast_S_S36x6 : S_.BroadcastsInDim S36x6 (![] : Fin 0 → Fin S36x6.rank)
  reducesTo_S36x6_S_d0_1 : S36x6.ReducesTo [0, 1] S_
  bcast_S_S6 : S_.BroadcastsInDim S6 (![] : Fin 0 → Fin S6.rank)
  reducesTo_S6_S_d0 : S6.ReducesTo [0] S_
  bcast_S_S18x256 : S_.BroadcastsInDim S18x256 (![] : Fin 0 → Fin S18x256.rank)
  reducesTo_S18x256_S_d0_1 : S18x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S256x2 .f32) (main_v50 : FVec F S256x2 .f32) : IVec S_ 1 :=
  let main_v51 : IVec S256x2 1 := cmpf .olt main_v49 main_v50
  let main_c_19 : IVec S_ 1 := constantI S_ 1 1#1
  let main_v52 : IVec S_ 1 := (fun x v => Host.reduce IntOp.andi x v reducesTo_S256x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S256x2 .f32) (main_arg11 : FVec F S2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x2 .f32 := Host.absf main_arg10
  let main_cst_18 : FVec F S_ .f32 := constant S_ .f32 0x7F800000#32
  let main_v50 : FVec F S256x2 .f32 := broadcastInDim S256x2 ![] bcast_S_S256x2 main_cst_18
  fn_part3 (F := F) main_arg11 main_v48 main_v49 main_v50

def fn_part1 {F : FTy → Type} [FloatOps F] (main_arg4 : FVec F S18x256 .f32) (main_arg5 : FVec F S256 .f32) (main_arg6 : FVec F S256x256 .f32) (main_arg7 : FVec F S256 .f32) (main_arg8 : FVec F S256x256 .f32) (main_arg9 : FVec F S256 .f32) (main_arg10 : FVec F S256x2 .f32) (main_arg11 : FVec F S2 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S18x256 .f32 := Host.absf main_arg4
  let main_cst_6 : FVec F S_ .f32 := constant S_ .f32 0x7F800000#32
  let main_v20 : FVec F S18x256 .f32 := broadcastInDim S18x256 ![] bcast_S_S18x256 main_cst_6
  let main_v21 : IVec S18x256 1 := cmpf .olt main_v19 main_v20
  let main_c_7 : IVec S_ 1 := constantI S_ 1 1#1
  let main_v22 : IVec S_ 1 := (fun x v => Host.reduce IntOp.andi x v reducesTo_S18x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x3x36 .f32) (main_arg1 : FVec F S4096x4096x3 .f32) (main_arg2 : FVec F S36x6 .f32) (main_arg3 : FVec F S6 .f32) (main_arg4 : FVec F S18x256 .f32) (main_arg5 : FVec F S256 .f32) (main_arg6 : FVec F S256x256 .f32) (main_arg7 : FVec F S256 .f32) (main_arg8 : FVec F S256x256 .f32) (main_arg9 : FVec F S256 .f32) (main_arg10 : FVec F S256x2 .f32) (main_arg11 : FVec F S2 .f32) : IVec S_ 1 :=
  let main_v0 : FVec F S4096x3x36 .f32 := Host.absf main_arg0
  let main_cst : FVec F S_ .f32 := constant S_ .f32 0x7F800000#32
  let main_v1 : FVec F S4096x3x36 .f32 := broadcastInDim S4096x3x36 ![] bcast_S_S4096x3x36 main_cst
  let main_v2 : IVec S4096x3x36 1 := cmpf .olt main_v0 main_v1
  let main_c : IVec S_ 1 := constantI S_ 1 1#1
  let main_v3 : IVec S_ 1 := (fun x v => Host.reduce IntOp.andi x v reducesTo_S4096x3x36_S_d0_1_2 h_S_) main_v2 main_c
  let main_v4 : FVec F S4096x4096x3 .f32 := Host.absf main_arg1
  let main_cst_0 : FVec F S_ .f32 := constant S_ .f32 0x7F800000#32
  let main_v5 : FVec F S4096x4096x3 .f32 := broadcastInDim S4096x4096x3 ![] bcast_S_S4096x4096x3 main_cst_0
  let main_v6 : IVec S4096x4096x3 1 := cmpf .olt main_v4 main_v5
  let main_c_1 : IVec S_ 1 := constantI S_ 1 1#1
  let main_v7 : IVec S_ 1 := (fun x v => Host.reduce IntOp.andi x v reducesTo_S4096x4096x3_S_d0_1_2 h_S_) main_v6 main_c_1
  let main_v8 : IVec S_ 1 := andi main_v3 main_v7
  let main_v9 : FVec F S36x6 .f32 := Host.absf main_arg2
  let main_cst_2 : FVec F S_ .f32 := constant S_ .f32 0x7F800000#32
  let main_v10 : FVec F S36x6 .f32 := broadcastInDim S36x6 ![] bcast_S_S36x6 main_cst_2
  let main_v11 : IVec S36x6 1 := cmpf .olt main_v9 main_v10
  let main_c_3 : IVec S_ 1 := constantI S_ 1 1#1
  let main_v12 : IVec S_ 1 := (fun x v => Host.reduce IntOp.andi x v reducesTo_S36x6_S_d0_1 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg4 main_arg5 main_arg6 main_arg7 main_arg8 main_arg9 main_arg10 main_arg11 main_v13 main_v16
-- ==== Kernel.lean ====
abbrev S4096x3x36 : Shape := ⟨3, ![4096, 3, 36]⟩
abbrev S4096x4096x3 : Shape := ⟨3, ![4096, 4096, 3]⟩
abbrev S36x6 : Shape := ⟨2, ![36, 6]⟩
abbrev S6 : Shape := ⟨1, ![6]⟩
abbrev S18x256 : Shape := ⟨2, ![18, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S12288x36 : Shape := ⟨2, ![12288, 36]⟩
abbrev S12288x6 : Shape := ⟨2, ![12288, 6]⟩
abbrev S1x6 : Shape := ⟨2, ![1, 6]⟩
abbrev S4096x3x6 : Shape := ⟨3, ![4096, 3, 6]⟩
abbrev S3x3 : Shape := ⟨2, ![3, 3]⟩
abbrev S_ : Shape := ⟨0, ![]⟩
abbrev S4096x3x1x6 : Shape := ⟨4, ![4096, 3, 1, 6]⟩
abbrev S1x3x3x1 : Shape := ⟨4, ![1, 3, 3, 1]⟩
abbrev S4096x3x3x6 : Shape := ⟨4, ![4096, 3, 3, 6]⟩
abbrev S12288x18 : Shape := ⟨2, ![12288, 18]⟩
abbrev S1x3x3 : Shape := ⟨3, ![1, 3, 3]⟩
abbrev S4096x3x3 : Shape := ⟨3, ![4096, 3, 3]⟩
abbrev S12288x3 : Shape := ⟨2, ![12288, 3]⟩
abbrev S12288x21 : Shape := ⟨2, ![12288, 21]⟩
abbrev S21x12288 : Shape := ⟨2, ![21, 12288]⟩
abbrev S4096x12288 : Shape := ⟨2, ![4096, 12288]⟩
abbrev S1x256 : Shape := ⟨2, ![1, 256]⟩
abbrev S1x2 : Shape := ⟨2, ![1, 2]⟩
abbrev S4096x18 : Shape := ⟨2, ![4096, 18]⟩
abbrev S4096x2 : Shape := ⟨2, ![4096, 2]⟩
abbrev S128x12288 : Shape := ⟨2, ![128, 12288]⟩
abbrev S128x18 : Shape := ⟨2, ![128, 18]⟩
abbrev S128x2 : Shape := ⟨2, ![128, 2]⟩
abbrev S128x21 : Shape := ⟨2, ![128, 21]⟩
abbrev S128x6 : Shape := ⟨2, ![128, 6]⟩
abbrev S128x1 : Shape := ⟨2, ![128, 1]⟩
abbrev S128x256 : Shape := ⟨2, ![128, 256]⟩

abbrev nBuf : Space → Nat
  | .hbm => 43
  | .vmem => 15
  | .smem => 0
  | _ => 0

abbrev bufTy : (tb : Table) → Fin (tcTables nBuf tb) → BufTy
  | .hbm, ⟨0, _⟩ => ⟨S4096x3x36, .f32⟩
  | .hbm, ⟨1, _⟩ => ⟨S4096x4096x3, .f32⟩
  | .hbm, ⟨2, _⟩ => ⟨S36x6, .f32⟩
  | .hbm, ⟨3, _⟩ => ⟨S6, .f32⟩
  | .hbm, ⟨4, _⟩ => ⟨S18x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S12288x36, .f32⟩
  | .hbm, ⟨13, _⟩ => ⟨S12288x6, .f32⟩
  | .hbm, ⟨14, _⟩ => ⟨S1x6, .f32⟩
  | .hbm, ⟨15, _⟩ => ⟨S12288x6, .f32⟩
  | .hbm, ⟨16, _⟩ => ⟨S12288x6, .f32⟩
  | .hbm, ⟨17, _⟩ => ⟨S4096x3x6, .f32⟩
  | .hbm, ⟨18, _⟩ => ⟨S3x3, .i32⟩
  | .hbm, ⟨19, _⟩ => ⟨S3x3, .i32⟩
  | .hbm, ⟨20, _⟩ => ⟨S_, .i32⟩
  | .hbm, ⟨21, _⟩ => ⟨S3x3, .i32⟩
  | .hbm, ⟨22, _⟩ => ⟨S3x3, .i32⟩
  | .hbm, ⟨23, _⟩ => ⟨S3x3, .i1⟩
  | .hbm, ⟨24, _⟩ => ⟨S3x3, .f32⟩
  | .hbm, ⟨25, _⟩ => ⟨S4096x3x1x6, .f32⟩
  | .hbm, ⟨26, _⟩ => ⟨S1x3x3x1, .f32⟩
  | .hbm, ⟨27, _⟩ => ⟨S4096x3x3x6, .f32⟩
  | .hbm, ⟨28, _⟩ => ⟨S4096x3x3x6, .f32⟩
  | .hbm, ⟨29, _⟩ => ⟨S4096x3x3x6, .f32⟩
  | .hbm, ⟨30, _⟩ => ⟨S12288x18, .f32⟩
  | .hbm, ⟨31, _⟩ => ⟨S1x3x3, .f32⟩
  | .hbm, ⟨32, _⟩ => ⟨S4096x3x3, .f32⟩
  | .hbm, ⟨33, _⟩ => ⟨S12288x3, .f32⟩
  | .hbm, ⟨34, _⟩ => ⟨S12288x21, .f32⟩
  | .hbm, ⟨35, _⟩ => ⟨S21x12288, .f32⟩
  | .hbm, ⟨36, _⟩ => ⟨S4096x12288, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x2, .f32⟩
  | .hbm, ⟨41, _⟩ => ⟨S4096x18, .f32⟩
  | .hbm, ⟨42, _⟩ => ⟨S4096x2, .f32⟩
  | .local _ .vmem, ⟨0, _⟩ => ⟨S128x12288, .f32⟩
  | .local _ .vmem, ⟨1, _⟩ => ⟨S128x12288, .f32⟩
  | .local _ .vmem, ⟨2, _⟩ => ⟨S21x12288, .f32⟩
  | .local _ .vmem, ⟨3, _⟩ => ⟨S18x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x2, .f32⟩
  | .local _ .vmem, ⟨10, _⟩ => ⟨S1x2, .f32⟩
  | .local _ .vmem, ⟨11, _⟩ => ⟨S128x18, .f32⟩
  | .local _ .vmem, ⟨12, _⟩ => ⟨S128x18, .f32⟩
  | .local _ .vmem, ⟨13, _⟩ => ⟨S128x2, .f32⟩
  | .local _ .vmem, ⟨14, _⟩ => ⟨S128x2, .f32⟩
  | _, _ => ⟨S4096x3x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S21x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S18x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x18 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4096x3x36_S12288x36 : S4096x3x36.ShapeCasts S12288x36
  bcast_S6_S1x6_1 : S6.BroadcastsInDim S1x6 (![1] : Fin 1 → Fin S1x6.rank)
  bcast_S1x6_S12288x6_0_1 : S1x6.BroadcastsInDim S12288x6 (![0, 1] : Fin 2 → Fin S12288x6.rank)
  shapeCasts_S12288x6_S4096x3x6 : S12288x6.ShapeCasts S4096x3x6
  bcast_S_S3x3 : S_.BroadcastsInDim S3x3 (![] : Fin 0 → Fin S3x3.rank)
  bcast_S4096x3x6_S4096x3x1x6_0_1_3 : S4096x3x6.BroadcastsInDim S4096x3x1x6 (![0, 1, 3] : Fin 3 → Fin S4096x3x1x6.rank)
  bcast_S3x3_S1x3x3x1_1_2 : S3x3.BroadcastsInDim S1x3x3x1 (![1, 2] : Fin 2 → Fin S1x3x3x1.rank)
  bcast_S4096x3x1x6_S4096x3x3x6_0_1_2_3 : S4096x3x1x6.BroadcastsInDim S4096x3x3x6 (![0, 1, 2, 3] : Fin 4 → Fin S4096x3x3x6.rank)
  bcast_S1x3x3x1_S4096x3x3x6_0_1_2_3 : S1x3x3x1.BroadcastsInDim S4096x3x3x6 (![0, 1, 2, 3] : Fin 4 → Fin S4096x3x3x6.rank)
  shapeCasts_S4096x3x3x6_S12288x18 : S4096x3x3x6.ShapeCasts S12288x18
  bcast_S3x3_S1x3x3_1_2 : S3x3.BroadcastsInDim S1x3x3 (![1, 2] : Fin 2 → Fin S1x3x3.rank)
  bcast_S1x3x3_S4096x3x3_0_1_2 : S1x3x3.BroadcastsInDim S4096x3x3 (![0, 1, 2] : Fin 3 → Fin S4096x3x3.rank)
  shapeCasts_S4096x3x3_S12288x3 : S4096x3x3.ShapeCasts S12288x3
  concatenates_S12288x18_S12288x3_S12288x21_d1 : Shape.Concatenates [S12288x18, S12288x3] S12288x21 1
  transposes_S12288x21_S21x12288_1_0 : S12288x21.Transposes [1, 0] S21x12288
  shapeCasts_S4096x4096x3_S4096x12288 : S4096x4096x3.ShapeCasts S4096x12288
  shapeCasts_S256_S1x256 : S256.ShapeCasts S1x256
  shapeCasts_S2_S1x2 : S2.ShapeCasts S1x2
  inb_S128x12288_S128x12288_0_0 : ∀ a, (![0, 0] : Fin 2 → Nat) a + S128x12288.size a ≤ S128x12288.size a
  h_S128x12288 : 0 < S128x12288.numel
  shapeCasts_S128x12288_S128x12288 : S128x12288.ShapeCasts S128x12288
  bitsLt_bf16_f32 : FTy.bits .bf16 < FTy.bits .f32
  inb_S21x12288_S21x12288_0_0 : ∀ a, (![0, 0] : Fin 2 → Nat) a + S21x12288.size a ≤ S21x12288.size a
  h_S21x12288 : 0 < S21x12288.numel
  shapeCasts_S21x12288_S21x12288 : S21x12288.ShapeCasts S21x12288
  slices_S128x21_o0_0_S128x6 : S128x21.Slices ![0, 0] S128x6
  slices_S128x21_o0_6_S128x6 : S128x21.Slices ![0, 6] S128x6
  slices_S128x21_o0_12_S128x6 : S128x21.Slices ![0, 12] S128x6
  slices_S128x21_o0_19_S128x1 : S128x21.Slices ![0, 19] S128x1
  slices_S128x21_o0_20_S128x1 : S128x21.Slices ![0, 20] S128x1
  broadcasts_S128x1_S128x6 : S128x1.Broadcasts S128x6
  concatenates_S128x6_S128x6_S128x6_S128x18_d1 : Shape.Concatenates [S128x6, S128x6, S128x6] S128x18 1
  inb_S128x18_S128x18_0_0 : ∀ a, (![0, 0] : Fin 2 → Nat) a + S128x18.size a ≤ S128x18.size a
  h_S128x18 : 0 < S128x18.numel
  inb_S18x256_S18x256_0_0 : ∀ a, (![0, 0] : Fin 2 → Nat) a + S18x256.size a ≤ S18x256.size a
  h_S18x256 : 0 < S18x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  dot_S12288x36_S36x6_S12288x6_1_0_0_1_n_n_wf : DotDims.WF S12288x36 S36x6 S12288x6 [1] [0] [0] [1] [] []
  dot_S128x12288_S21x12288_S128x21_1_1_0_0_n_n_wf : DotDims.WF S128x12288 S21x12288 S128x21 [1] [1] [0] [0] [] []
  dot_S128x18_S18x256_S128x256_1_0_0_1_n_n_wf : DotDims.WF S128x18 S18x256 S128x256 [1] [0] [0] [1] [] []
  dot_S128x256_S256x256_S128x256_1_0_0_1_n_n_wf : DotDims.WF S128x256 S256x256 S128x256 [1] [0] [0] [1] [] []
  dot_S128x256_S256x2_S128x2_1_0_0_1_n_n_wf : DotDims.WF S128x256 S256x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x12288.size a ≤ S4096x12288.size a
  hwx0_0 : ∀ i : grid0.Coords, EltTy.bits .f32 = 32 ∨ (Rect.block (s := S4096x12288) S128x12288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S21x12288.size a ≤ S21x12288.size a
  hwx0_1 : ∀ i : grid0.Coords, EltTy.bits .f32 = 32 ∨ (Rect.block (s := S21x12288) S21x12288.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S18x256.size a ≤ S18x256.size a
  hwx0_2 : ∀ i : grid0.Coords, EltTy.bits .f32 = 32 ∨ (Rect.block (s := S18x256) S18x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x2.size a ≤ S256x2.size a
  hwx0_8 : ∀ i : grid0.Coords, EltTy.bits .f32 = 32 ∨ (Rect.block (s := S256x2) S256x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2.size a ≤ S1x2.size a
  hwx0_9 : ∀ i : grid0.Coords, EltTy.bits .f32 = 32 ∨ (Rect.block (s := S1x2) S1x2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x18.size a ≤ S4096x18.size a
  hwx0_10 : ∀ i : grid0.Coords, EltTy.bits .f32 = 32 ∨ (Rect.block (s := S4096x18) S128x18.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2.size a ≤ S4096x2.size a
  hwx0_11 : ∀ i : grid0.Coords, EltTy.bits .f32 = 32 ∨ (Rect.block (s := S4096x2) S128x2.size (cc0_transform_11 i) (hinb0_11 i)).WholeWords (EltTy.packing .f32)

variable [Facts₀]

def dot_S12288x36_S36x6_S12288x6_1_0_0_1_n_n : DotDims S12288x36 S36x6 S12288x6 where
  lhsContracting := [1]
  rhsContracting := [0]
  lhsNonContracting := [0]
  rhsNonContracting := [1]
  lhsBatch := []
  rhsBatch := []
  wf := dot_S12288x36_S36x6_S12288x6_1_0_0_1_n_n_wf
def dot_S128x12288_S21x12288_S128x21_1_1_0_0_n_n : DotDims S128x12288 S21x12288 S128x21 where
  lhsContracting := [1]
  rhsContracting := [1]
  lhsNonContracting := [0]
  rhsNonContracting := [0]
  lhsBatch := []
  rhsBatch := []
  wf := dot_S128x12288_S21x12288_S128x21_1_1_0_0_n_n_wf
def dot_S128x18_S18x256_S128x256_1_0_0_1_n_n : DotDims S128x18 S18x256 S128x256 where
  lhsContracting := [1]
  rhsContracting := [0]
  lhsNonContracting := [0]
  rhsNonContracting := [1]
  lhsBatch := []
  rhsBatch := []
  wf := dot_S128x18_S18x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x2_S128x2_1_0_0_1_n_n : DotDims S128x256 S256x2 S128x2 where
  lhsContracting := [1]
  rhsContracting := [0]
  lhsNonContracting := [0]
  rhsNonContracting := [1]
  lhsBatch := []
  rhsBatch := []
  wf := dot_S128x256_S256x2_S128x2_1_0_0_1_n_n_wf

abbrev win0_0 : Pipeline.Window sig grid0 :=
  Pipeline.Window.ofSpec (Memref.whole main_v23) S128x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S21x12288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S18x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28_0) S128x18.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v28_1) S128x2.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x3x36 : Shape := ⟨3, ![4096, 3, 36]⟩
abbrev S4096x4096x3 : Shape := ⟨3, ![4096, 4096, 3]⟩
abbrev S36x6 : Shape := ⟨2, ![36, 6]⟩
abbrev S6 : Shape := ⟨1, ![6]⟩
abbrev S18x256 : Shape := ⟨2, ![18, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩
abbrev S4096x18 : Shape := ⟨2, ![4096, 18]⟩
abbrev S4096x4096x1 : Shape := ⟨3, ![4096, 4096, 1]⟩
abbrev S4096x4096 : Shape := ⟨2, ![4096, 4096]⟩
abbrev S4096x1x36 : Shape := ⟨3, ![4096, 1, 36]⟩
abbrev S4096x36 : Shape := ⟨2, ![4096, 36]⟩
abbrev S4096x6 : Shape := ⟨2, ![4096, 6]⟩
abbrev S1x6 : Shape := ⟨2, ![1, 6]⟩
abbrev S4096x12 : Shape := ⟨2, ![4096, 12]⟩
abbrev S4096 : Shape := ⟨1, ![4096]⟩
abbrev S4096x1 : Shape := ⟨2, ![4096, 1]⟩
abbrev S4096x256 : Shape := ⟨2, ![4096, 256]⟩
abbrev S1x256 : Shape := ⟨2, ![1, 256]⟩
abbrev S4096x2 : Shape := ⟨2, ![4096, 2]⟩
abbrev S1x2 : Shape := ⟨2, ![1, 2]⟩

abbrev nBuf : Space → Nat
  | .hbm => 87
  | .vmem => 0
  | .smem => 0
  | _ => 0

abbrev bufTy : (tb : Table) → Fin (tcTables nBuf tb) → BufTy
  | .hbm, ⟨0, _⟩ => ⟨S4096x3x36, .f32⟩
  | .hbm, ⟨1, _⟩ => ⟨S4096x4096x3, .f32⟩
  | .hbm, ⟨2, _⟩ => ⟨S36x6, .f32⟩
  | .hbm, ⟨3, _⟩ => ⟨S6, .f32⟩
  | .hbm, ⟨4, _⟩ => ⟨S18x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S_, .f32⟩
  | .hbm, ⟨13, _⟩ => ⟨S4096x18, .f32⟩
  | .hbm, ⟨14, _⟩ => ⟨S4096x4096x1, .f32⟩
  | .hbm, ⟨15, _⟩ => ⟨S4096x4096, .f32⟩
  | .hbm, ⟨16, _⟩ => ⟨S4096x1x36, .f32⟩
  | .hbm, ⟨17, _⟩ => ⟨S4096x36, .f32⟩
  | .hbm, ⟨18, _⟩ => ⟨S4096x6, .f32⟩
  | .hbm, ⟨19, _⟩ => ⟨S1x6, .f32⟩
  | .hbm, ⟨20, _⟩ => ⟨S4096x6, .f32⟩
  | .hbm, ⟨21, _⟩ => ⟨S4096x6, .f32⟩
  | .hbm, ⟨22, _⟩ => ⟨S4096x6, .f32⟩
  | .hbm, ⟨23, _⟩ => ⟨S4096x12, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x12, .f32⟩
  | .hbm, ⟨28, _⟩ => ⟨S4096x12, .f32⟩
  | .hbm, ⟨29, _⟩ => ⟨S4096x18, .f32⟩
  | .hbm, ⟨30, _⟩ => ⟨S4096x4096x1, .f32⟩
  | .hbm, ⟨31, _⟩ => ⟨S4096x4096, .f32⟩
  | .hbm, ⟨32, _⟩ => ⟨S4096x1x36, .f32⟩
  | .hbm, ⟨33, _⟩ => ⟨S4096x36, .f32⟩
  | .hbm, ⟨34, _⟩ => ⟨S4096x6, .f32⟩
  | .hbm, ⟨35, _⟩ => ⟨S1x6, .f32⟩
  | .hbm, ⟨36, _⟩ => ⟨S4096x6, .f32⟩
  | .hbm, ⟨37, _⟩ => ⟨S4096x6, .f32⟩
  | .hbm, ⟨38, _⟩ => ⟨S4096x6, .f32⟩
  | .hbm, ⟨39, _⟩ => ⟨S4096x12, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x12, .f32⟩
  | .hbm, ⟨44, _⟩ => ⟨S4096x12, .f32⟩
  | .hbm, ⟨45, _⟩ => ⟨S4096x18, .f32⟩
  | .hbm, ⟨46, _⟩ => ⟨S4096x4096x1, .f32⟩
  | .hbm, ⟨47, _⟩ => ⟨S4096x4096, .f32⟩
  | .hbm, ⟨48, _⟩ => ⟨S4096x1x36, .f32⟩
  | .hbm, ⟨49, _⟩ => ⟨S4096x36, .f32⟩
  | .hbm, ⟨50, _⟩ => ⟨S4096x6, .f32⟩
  | .hbm, ⟨51, _⟩ => ⟨S1x6, .f32⟩
  | .hbm, ⟨52, _⟩ => ⟨S4096x6, .f32⟩
  | .hbm, ⟨53, _⟩ => ⟨S4096x6, .f32⟩
  | .hbm, ⟨54, _⟩ => ⟨S4096x6, .f32⟩
  | .hbm, ⟨55, _⟩ => ⟨S4096x12, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x12, .f32⟩
  | .hbm, ⟨60, _⟩ => ⟨S4096x12, .f32⟩
  | .hbm, ⟨61, _⟩ => ⟨S4096x18, .f32⟩
  | .hbm, ⟨62, _⟩ => ⟨S4096x256, .f32⟩
  | .hbm, ⟨63, _⟩ => ⟨S1x256, .f32⟩
  | .hbm, ⟨64, _⟩ => ⟨S4096x256, .f32⟩
  | .hbm, ⟨65, _⟩ => ⟨S4096x256, .f32⟩
  | .hbm, ⟨66, _⟩ => ⟨S_, .f32⟩
  | .hbm, ⟨67, _⟩ => ⟨S4096x256, .f32⟩
  | .hbm, ⟨68, _⟩ => ⟨S4096x256, .f32⟩
  | .hbm, ⟨69, _⟩ => ⟨S4096x256, .f32⟩
  | .hbm, ⟨70, _⟩ => ⟨S1x256, .f32⟩
  | .hbm, ⟨71, _⟩ => ⟨S4096x256, .f32⟩
  | .hbm, ⟨72, _⟩ => ⟨S4096x256, .f32⟩
  | .hbm, ⟨73, _⟩ => ⟨S_, .f32⟩
  | .hbm, ⟨74, _⟩ => ⟨S4096x256, .f32⟩
  | .hbm, ⟨75, _⟩ => ⟨S4096x256, .f32⟩
  | .hbm, ⟨76, _⟩ => ⟨S4096x256, .f32⟩
  | .hbm, ⟨77, _⟩ => ⟨S1x256, .f32⟩
  | .hbm, ⟨78, _⟩ => ⟨S4096x256, .f32⟩
  | .hbm, ⟨79, _⟩ => ⟨S4096x256, .f32⟩
  | .hbm, ⟨80, _⟩ => ⟨S_, .f32⟩
  | .hbm, ⟨81, _⟩ => ⟨S4096x256, .f32⟩
  | .hbm, ⟨82, _⟩ => ⟨S4096x256, .f32⟩
  | .hbm, ⟨83, _⟩ => ⟨S4096x2, .f32⟩
  | .hbm, ⟨84, _⟩ => ⟨S1x2, .f32⟩
  | .hbm, ⟨85, _⟩ => ⟨S4096x2, .f32⟩
  | .hbm, ⟨86, _⟩ => ⟨S4096x2, .f32⟩
  | _, _ => ⟨S4096x3x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_cst : Ref sig .tc := ⟨.hbm, 66, rfl⟩
abbrev main_call0_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call1_cst : Ref sig .tc := ⟨.hbm, 73, rfl⟩
abbrev main_call1_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call2_cst : Ref sig .tc := ⟨.hbm, 80, rfl⟩
abbrev main_call2_v0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  bcast_S_S4096x18 : S_.BroadcastsInDim S4096x18 (![] : Fin 0 → Fin S4096x18.rank)
  slices_S4096x4096x3_S4096x4096x1_0_0_0 : S4096x4096x3.Slices ![0, 0, 0] S4096x4096x1
  shapeCasts_S4096x4096x1_S4096x4096 : S4096x4096x1.ShapeCasts S4096x4096
  slices_S4096x3x36_S4096x1x36_0_0_0 : S4096x3x36.Slices ![0, 0, 0] S4096x1x36
  shapeCasts_S4096x1x36_S4096x36 : S4096x1x36.ShapeCasts S4096x36
  bcast_S6_S1x6_1 : S6.BroadcastsInDim S1x6 (![1] : Fin 1 → Fin S1x6.rank)
  bcast_S1x6_S4096x6_0_1 : S1x6.BroadcastsInDim S4096x6 (![0, 1] : Fin 2 → Fin S4096x6.rank)
  slices_S4096x18_S4096x12_0_0 : S4096x18.Slices ![0, 0] S4096x12
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x12_0_1 : S4096x1.BroadcastsInDim S4096x12 (![0, 1] : Fin 2 → Fin S4096x12.rank)
  concatenates_S4096x6_S4096x12_S4096x18_d1 : Shape.Concatenates [S4096x6, S4096x12] S4096x18 1
  slices_S4096x4096x3_S4096x4096x1_0_0_1 : S4096x4096x3.Slices ![0, 0, 1] S4096x4096x1
  slices_S4096x3x36_S4096x1x36_0_1_0 : S4096x3x36.Slices ![0, 1, 0] S4096x1x36
  slices_S4096x4096x3_S4096x4096x1_0_0_2 : S4096x4096x3.Slices ![0, 0, 2] S4096x4096x1
  slices_S4096x3x36_S4096x1x36_0_2_0 : S4096x3x36.Slices ![0, 2, 0] S4096x1x36
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  dot_S4096x36_S36x6_S4096x6_1_0_0_1_n_n_wf : DotDims.WF S4096x36 S36x6 S4096x6 [1] [0] [0] [1] [] []
  dot_S4096x4096_S4096x6_S4096x6_1_0_0_1_n_n_wf : DotDims.WF S4096x4096 S4096x6 S4096x6 [1] [0] [0] [1] [] []
  dot_S4096x18_S18x256_S4096x256_1_0_0_1_n_n_wf : DotDims.WF S4096x18 S18x256 S4096x256 [1] [0] [0] [1] [] []
  dot_S4096x256_S256x256_S4096x256_1_0_0_1_n_n_wf : DotDims.WF S4096x256 S256x256 S4096x256 [1] [0] [0] [1] [] []
  dot_S4096x256_S256x2_S4096x2_1_0_0_1_n_n_wf : DotDims.WF S4096x256 S256x2 S4096x2 [1] [0] [0] [1] [] []

variable [Facts₀]

def dot_S4096x36_S36x6_S4096x6_1_0_0_1_n_n : DotDims S4096x36 S36x6 S4096x6 where
  lhsContracting := [1]
  rhsContracting := [0]
  lhsNonContracting := [0]
  rhsNonContracting := [1]
  lhsBatch := []
  rhsBatch := []
  wf := dot_S4096x36_S36x6_S4096x6_1_0_0_1_n_n_wf
def dot_S4096x4096_S4096x6_S4096x6_1_0_0_1_n_n : DotDims S4096x4096 S4096x6 S4096x6 where
  lhsContracting := [1]
  rhsContracting := [0]
  lhsNonContracting := [0]
  rhsNonContracting := [1]
  lhsBatch := []
  rhsBatch := []
  wf := dot_S4096x4096_S4096x6_S4096x6_1_0_0_1_n_n_wf
def dot_S4096x18_S18x256_S4096x256_1_0_0_1_n_n : DotDims S4096x18 S18x256 S4096x256 where
  lhsContracting := [1]
  rhsContracting := [0]
  lhsNonContracting := [0]
  rhsNonContracting := [1]
  lhsBatch := []
  rhsBatch := []
  wf := dot_S4096x18_S18x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

class Facts : Prop extends Facts₀ where

variable [Facts]
-- ==== Proof.Spec.lean ====
/-
  The two results of the computation, written once, index by index, as functions of the argument arrays over the
  extended reals.

  For an agent `j`, a time step `t` and an output feature `v`, the projected observation is
      X j t v = (∑ f, vis j t f · Wv f v) + bv v.
  The message agent `b` receives at step `t` is  msg b t v = ∑ j, a b j t · X j t v, and the weight it gives the past is the
  row sum  rs b t = ∑ j, a b j t.  After the three steps the aggregate of agent `b` has eighteen columns in three groups of six:
      columns  0 …  5 :  msg b 2 v
      columns  6 … 11 :  msg b 1 v · rs b 2
      columns 12 … 17 :  (msg b 0 v · rs b 1) · rs b 2.
  The second result feeds each agent's aggregate through three dense layers with a rectifier and one dense layer without.
-/
import Idealize.ShloMosaic.PureOps.Ideal.Laws
import Idealize.ShloMosaic.Lib.ValueIdx

noncomputable section

open scoped BigOperators

namespace Cert.Spec

open Idealize.ShloMosaic Idealize.ShloMosaic.ValueIdx

/-- The projected observation of agent `j` at step `t`, feature `v`. -/
def proj (vis : (⟨3, ![4096, 3, 36]⟩ : Shape).Idx → EReal) (Wv : (⟨2, ![36, 6]⟩ : Shape).Idx → EReal)
    (bv : (⟨1, ![6]⟩ : Shape).Idx → EReal) (j : Fin 4096) (t : Fin 3) (v : Fin 6) : EReal :=
  (∑ f : Fin 36, vis (ix3 j t f) * Wv (ix2 f v)) + bv (ix1 v)

/-- The message agent `b` receives at step `t`: its row of the step's adjacency against the projected observations. -/
def msg (a : (⟨3, ![4096, 4096, 3]⟩ : Shape).Idx → EReal) (X : Fin 4096 → Fin 3 → Fin 6 → EReal)
    (b : Fin 4096) (t : Fin 3) (v : Fin 6) : EReal :=
  ∑ j : Fin 4096, a (ix3 b j t) * X j t v

/-- The sum of agent `b`'s row of the step's adjacency. -/
def rowSum (a : (⟨3, ![4096, 4096, 3]⟩ : Shape).Idx → EReal) (b : Fin 4096) (t : Fin 3) : EReal :=
  ∑ j : Fin 4096, a (ix3 b j t)

/-- The aggregate of agent `b` after the three steps, column `c`: the newest message first, each older one scaled by
    the row sums of the steps after it. -/
def agg (a : (⟨3, ![4096, 4096, 3]⟩ : Shape).Idx → EReal) (X : Fin 4096 → Fin 3 → Fin 6 → EReal)
    (b : Fin 4096) (c : Fin 18) : EReal :=
  if h : c.val < 6 then msg a X b 2 ⟨c.val, h⟩
  else if h' : c.val < 12 then msg a X b 1 ⟨c.val - 6, by omega⟩ * rowSum a b 2
  else msg a X b 0 ⟨c.val - 12, by omega⟩ * rowSum a b 1 * rowSum a b 2

/-- Agent `j` at step `t` sits at position `3·j + t` of the flattened (agent, step) axis. -/
def flat (j : Fin 4096) (t : Fin 3) : Fin 12288 := ⟨3 * j.val + t.val, by have := j.isLt; have := t.isLt; omega⟩

/-- The entry of the 3 × 3 identity: one on the diagonal, zero off it. -/
def delta (t t' : Fin 3) : EReal := if t = t' then 1 else 0

/-- One dense layer at output `n`: the input row against column `n` of the weights, plus the bias. -/
def dense {K N : Nat} (W : Fin K → Fin N → EReal) (bias : Fin N → EReal) (x : Fin K → EReal) (n : Fin N) : EReal :=
  (∑ k : Fin K, x k * W k n) + bias n

/-- The rectifier. -/
def relu (x : EReal) : EReal := max x 0

/-- The four layers applied to one aggregate row. -/
def mlp (W0 : Fin 18 → Fin 256 → EReal) (b0 : Fin 256 → EReal) (W1 : Fin 256 → Fin 256 → EReal) (b1 : Fin 256 → EReal)
    (W2 : Fin 256 → Fin 256 → EReal) (b2 : Fin 256 → EReal) (Wp : Fin 256 → Fin 2 → EReal) (bp : Fin 2 → EReal)
    (x : Fin 18 → EReal) (o : Fin 2) : EReal :=
  dense Wp bp (fun k2 => relu (dense W2 b2 (fun k1 => relu (dense W1 b1 (fun k0 => relu (dense W0 b0 x k0)) k1)) k2)) o

/-- The first result: every agent's aggregate. -/
def aggAll (vis : (⟨3, ![4096, 3, 36]⟩ : Shape).Idx → EReal) (a : (⟨3, ![4096, 4096, 3]⟩ : Shape).Idx → EReal)
    (Wv : (⟨2, ![36, 6]⟩ : Shape).Idx → EReal) (bv : (⟨1, ![6]⟩ : Shape).Idx → EReal) :
    (⟨2, ![4096, 18]⟩ : Shape).Idx → EReal :=
  fun i => agg a (proj vis Wv bv) (i 0) (i 1)

/-- The second result: the four layers on every agent's aggregate. -/
def outAll (vis : (⟨3, ![4096, 3, 36]⟩ : Shape).Idx → EReal) (a : (⟨3, ![4096, 4096, 3]⟩ : Shape).Idx → EReal)
    (Wv : (⟨2, ![36, 6]⟩ : Shape).Idx → EReal) (bv : (⟨1, ![6]⟩ : Shape).Idx → EReal)
    (W0 : (⟨2, ![18, 256]⟩ : Shape).Idx → EReal) (b0 : (⟨1, ![256]⟩ : Shape).Idx → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wp : (⟨2, ![256, 2]⟩ : Shape).Idx → EReal) (bp : (⟨1, ![2]⟩ : Shape).Idx → EReal) :
    (⟨2, ![4096, 2]⟩ : Shape).Idx → EReal :=
  fun i => mlp (fun k n => W0 (ix2 k n)) (fun n => b0 (ix1 n)) (fun k n => W1 (ix2 k n)) (fun n => b1 (ix1 n))
    (fun k n => W2 (ix2 k n)) (fun n => b2 (ix1 n)) (fun k n => Wp (ix2 k n)) (fun n => bp (ix1 n))
    (fun c => agg a (proj vis Wv bv) (i 0) c) (i 1)

end Cert.Spec

end
-- ==== Proof.Collapse.lean ====
/-
  The algebra that joins one contraction over the flattened (agent, step) axis to the three per-step contractions.

  A sum over the 12288 positions `3·j + t` is the double sum over agents `j` and steps `t`. Against a factor that carries
  the 3 × 3 identity's entry `delta t t'`, the inner sum over `t` keeps the one term `t = t'`: on the extended reals
  `x · 0 = 0` and `x · 1 = x` hold for EVERY `x`, infinite ones included, and sums are commutative and associative, so no
  finiteness is asked of anything.
-/
import proofs.«167796_j25305947308075_1_alg».proof.Proof.Spec

noncomputable section

open scoped BigOperators

namespace Cert.Collapse

open Cert.Spec

/-- Positions of the flattened axis are pairs (agent, step): `3·j + t` back to `(j, t)` by quotient and remainder. -/
def flatEquiv : Fin 4096 × Fin 3 ≃ Fin 12288 where
  toFun p := flat p.1 p.2
  invFun k := (⟨k.val / 3, by have := k.isLt; omega⟩, ⟨k.val % 3, Nat.mod_lt _ (by decide)⟩)
  left_inv := by
    rintro ⟨j, t⟩
    have hj := j.isLt
    have ht := t.isLt
    refine Prod.ext (Fin.ext ?_) (Fin.ext ?_)
    · show (3 * j.val + t.val) / 3 = j.val
      omega
    · show (3 * j.val + t.val) % 3 = t.val
      omega
  right_inv := by
    intro k
    refine Fin.ext ?_
    show 3 * (k.val / 3) + k.val % 3 = k.val
    omega

/-- A sum over the flattened axis is the sum over agents of the sum over steps. -/
theorem sum_flat (F : Fin 12288 → EReal) : ∑ k, F k = ∑ j : Fin 4096, ∑ t : Fin 3, F (flat j t) := by
  rw [← Equiv.sum_comp flatEquiv F, Fintype.sum_prod_type]
  rfl

/-- Against the identity's column `t'`, a sum over the three steps keeps the term at `t'`. -/
theorem sum_delta (G : Fin 3 → EReal) (t' : Fin 3) : ∑ t : Fin 3, G t * delta t t' = G t' := by
  rw [Fin.sum_univ_three]
  fin_cases t' <;> simp [delta]

/-- The selector's message rows: the contraction over the flattened axis of `A j t · (X j t · delta t t')` is the step-`t'`
    contraction over agents. -/
theorem sum_flat_msg (A X : Fin 4096 → Fin 3 → EReal) (t' : Fin 3) (F : Fin 12288 → EReal)
    (hF : ∀ j t, F (flat j t) = A j t * (X j t * delta t t')) :
    ∑ k, F k = ∑ j : Fin 4096, A j t' * X j t' := by
  rw [sum_flat]
  refine Finset.sum_congr rfl fun j _ => ?_
  have h : ∀ t : Fin 3, F (flat j t) = (A j t * X j t) * delta t t' := fun t => by rw [hF, mul_assoc]
  simp only [h]
  exact sum_delta (fun t => A j t * X j t) t'

/-- The selector's row-sum rows: the contraction of `A j t · delta t t'` is the step-`t'` row sum. -/
theorem sum_flat_row (A : Fin 4096 → Fin 3 → EReal) (t' : Fin 3) (F : Fin 12288 → EReal)
    (hF : ∀ j t, F (flat j t) = A j t * delta t t') :
    ∑ k, F k = ∑ j : Fin 4096, A j t' := by
  rw [sum_flat]
  refine Finset.sum_congr rfl fun j _ => ?_
  simp only [hF]
  exact sum_delta (fun t => A j t) t'

end Cert.Collapse

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.MatmulAt.lean ====
/-
  A matrix product into a zero accumulator, read at a result entry by coordinates, over the extended reals.

  Two arrangements occur. Rows against columns: the left operand [M, K] is contracted along its second axis against the
  first axis of the right operand [K, N], and entry (p, n) is ∑ k, l p k · r k n. Rows against rows: both operands are
  contracted along their second axes, the right operand being [N, K], and entry (p, n) is ∑ k, l p k · r n k (a product
  with the transpose that never forms it).
-/
import proofs.«167796_j25305947308075_1_alg».proof.Proof.LibContraction

noncomputable section

open scoped BigOperators

namespace Cert.MatmulAt

open Idealize.ShloMosaic Idealize.ShloMosaic.ValueIdx Cert.Lib.Contraction

variable {φ₁ φ₂ : FTy}

/-- Rows against columns. -/
theorem rows_cols {M K N : Nat} (d : DotDims ⟨2, ![M, K]⟩ ⟨2, ![K, N]⟩ ⟨2, ![M, N]⟩)
    (hc : d.lhsContracting = [1]) (hc' : d.rhsContracting = [0]) (hb : d.lhsBatch = []) (hb' : d.rhsBatch = [])
    (hn : d.lhsNonContracting = [0]) (hn' : d.rhsNonContracting = [1])
    (l : FVec Ideal ⟨2, ![M, K]⟩ φ₁) (r : FVec Ideal ⟨2, ![K, N]⟩ φ₂) (p : Fin M) (n : Fin N) :
    FloatOps.matmul d none l r (constant ⟨2, ![M, N]⟩ .f32 0x00000000#32) (ix2 p n)
      = ∑ k : Fin K, l (ix2 p k) * r (ix2 k n) := by
  rw [Ideal.matmul_constant_zero_apply, sum_contr d hc K rfl]
  refine Finset.sum_congr rfl fun k _ => ?_
  have el : d.lhsIdx (ix2 p n) ((contrFin d hc K rfl).symm k) = ix2 p k := funext fun a => Fin.ext (by
    match a with
    | ⟨0, _⟩ => exact lhs_free d hb hn (ix2 p n) _ (show 0 < 2 by omega)
    | ⟨1, _⟩ => exact lhs_contracted d hc K rfl (ix2 p n) k)
  have er : d.rhsIdx (ix2 p n) ((contrFin d hc K rfl).symm k) = ix2 k n := funext fun a => Fin.ext (by
    match a with
    | ⟨0, _⟩ => exact rhs_contracted d hc hc' K rfl (ix2 p n) k
    | ⟨1, _⟩ => exact rhs_free d hb hb' hn hn' (ix2 p n) _ (show 1 < 2 by omega))
  rw [el, er]

/-- Rows against rows. -/
theorem rows_rows {M K N : Nat} (d : DotDims ⟨2, ![M, K]⟩ ⟨2, ![N, K]⟩ ⟨2, ![M, N]⟩)
    (hc : d.lhsContracting = [1]) (hc' : d.rhsContracting = [1]) (hb : d.lhsBatch = []) (hb' : d.rhsBatch = [])
    (hn : d.lhsNonContracting = [0]) (hn' : d.rhsNonContracting = [0])
    (l : FVec Ideal ⟨2, ![M, K]⟩ φ₁) (r : FVec Ideal ⟨2, ![N, K]⟩ φ₂) (p : Fin M) (n : Fin N) :
    FloatOps.matmul d none l r (constant ⟨2, ![M, N]⟩ .f32 0x00000000#32) (ix2 p n)
      = ∑ k : Fin K, l (ix2 p k) * r (ix2 n k) := by
  rw [Ideal.matmul_constant_zero_apply, sum_contr d hc K rfl]
  refine Finset.sum_congr rfl fun k _ => ?_
  have el : d.lhsIdx (ix2 p n) ((contrFin d hc K rfl).symm k) = ix2 p k := funext fun a => Fin.ext (by
    match a with
    | ⟨0, _⟩ => exact lhs_free d hb hn (ix2 p n) _ (show 0 < 2 by omega)
    | ⟨1, _⟩ => exact lhs_contracted d hc K rfl (ix2 p n) k)
  have er : d.rhsIdx (ix2 p n) ((contrFin d hc K rfl).symm k) = ix2 n k := funext fun a => Fin.ext (by
    match a with
    | ⟨0, _⟩ => exact rhs_free d hb hb' hn hn' (ix2 p n) _ (show 1 < 2 by omega)
    | ⟨1, _⟩ => exact rhs_contracted d hc hc' K rfl (ix2 p n) k)
  rw [el, er]

end Cert.MatmulAt

end
-- ==== Proof.Payload.lean ====
/-
  What the kernel body stores, read at an entry, for ANY contents of its input blocks.

  The body takes a block `a` of 128 adjacency rows over the 12288 flattened positions and the selector `s` (21 rows over the
  same positions), and forms  R p c = ∑ k, a p k · s c k  (a product with the selector's transpose). Of the 21 columns of
  `R`, 0 … 17 are three groups of six message columns (steps 0, 1, 2) and 18, 19, 20 the three row sums. The block of
  aggregates it stores has, in row `p`: columns 0 … 5 = R p (12 + q); columns 6 … 11 = R p q · R p 20; columns 12 … 17 =
  (R p (q - 12) · R p 19) · R p 20. The second store is the four dense layers on each row of that block, the weights
  taken as they are and each bias from its one-row matrix.
-/
import proofs.«167796_j25305947308075_1_alg».proof.Proof.Spec
import proofs.«167796_j25305947308075_1_alg».proof.Proof.MatmulAt
import proofs.«167796_j25305947308075_1_alg».proof.Proof.Gen.KernelIdeal.Skeleton
import Idealize.ShloMosaic.Lib.Pipeline.Value
import Idealize.ShloMosaic.Lib.ValueLayout

noncomputable section

open scoped BigOperators

namespace Cert.Payload

open Idealize.ShloMosaic Idealize.ShloMosaic.ValueIdx Cert.KernelIdeal Cert.KernelIdeal.Gen

/-! ## Layout: three groups of six columns side by side, one column spread over six -/

/-- Three [128, 6] blocks joined along the columns, read at (p, q): the block that holds column `q`. -/
theorem concat3_apply {α : Type} (x y z : S128x6.Idx → α)
    (h : Shape.Concatenates (([⟨S128x6, x⟩, ⟨S128x6, y⟩, ⟨S128x6, z⟩] : List ((s : Shape) × (s.Idx → α))).map (·.1)) S128x18 1)
    (p : Fin 128) (q : Fin 18) :
    concatenate S128x18 1 [⟨S128x6, x⟩, ⟨S128x6, y⟩, ⟨S128x6, z⟩] h (ix2 p q)
      = if h6 : q.val < 6 then x (ix2 p ⟨q.val, h6⟩)
        else if h12 : q.val < 12 then y (ix2 p ⟨q.val - 6, by omega⟩)
        else z (ix2 p ⟨q.val - 12, by have := q.isLt; omega⟩) := by
  have hq := q.isLt
  split
  · rename_i h6
    exact concatenate_apply_piece 1 _ h (ix2 p q) 0 (show 0 < 3 by omega) S128x6 x rfl rfl 0 rfl (ix2 p ⟨q.val, h6⟩)
      (fun b hb => by match b with | ⟨0, _⟩ => rfl | ⟨1, _⟩ => exact absurd rfl hb) (Nat.zero_add _)
  · rename_i h6
    split
    · rename_i h12
      exact concatenate_apply_piece 1 _ h (ix2 p q) 1 (show 1 < 3 by omega) S128x6 y rfl rfl 6 rfl (ix2 p ⟨q.val - 6, by omega⟩)
        (fun b hb => by match b with | ⟨0, _⟩ => rfl | ⟨1, _⟩ => exact absurd rfl hb)
        (by show 6 + (q.val - 6) = q.val; omega)
    · rename_i h12
      exact concatenate_apply_piece 1 _ h (ix2 p q) 2 (show 2 < 3 by omega) S128x6 z rfl rfl 12 rfl (ix2 p ⟨q.val - 12, by omega⟩)
        (fun b hb => by match b with | ⟨0, _⟩ => rfl | ⟨1, _⟩ => exact absurd rfl hb)
        (by show 12 + (q.val - 12) = q.val; omega)

/-- One column spread over six reads that column's entry. -/
theorem spread_apply {α : Type} (x : S128x1.Idx → α) (h : S128x1.Broadcasts S128x6) (p : Fin 128) (q : Fin 6) :
    broadcastTo S128x6 x h (ix2 p q) = x (ix2 p (0 : Fin 1)) := by
  refine broadcastTo_apply x h (ix2 p q) (ix2 p (0 : Fin 1)) fun ax => ?_
  match ax with
  | ⟨0, _⟩ => show p.val = if (128 : Nat) = 1 then 0 else p.val; rw [if_neg (by decide)]
  | ⟨1, _⟩ => show 0 = if (1 : Nat) = 1 then 0 else q.val; rw [if_pos rfl]

/-! ## The first store -/

/-- Entry (p, c) of the block of adjacency rows against the selector's rows. -/
def res (a : S128x12288.Idx → EReal) (s : S21x12288.Idx → EReal) (p : Fin 128) (c : Fin 21) : EReal :=
  ∑ k : Fin 12288, a (ix2 p k) * s (ix2 c k)

/-- The aggregate's column `q` from the 21 entries of one row of that product. -/
def aggOf (R : Fin 21 → EReal) (q : Fin 18) : EReal :=
  if h6 : q.val < 6 then R ⟨q.val + 12, by omega⟩
  else if h12 : q.val < 12 then R ⟨q.val, by omega⟩ * R 20
  else R ⟨q.val - 12, by have := q.isLt; omega⟩ * R 19 * R 20

/-- The product as the body forms it, at an entry. -/
theorem prod_apply (a : Vec Ideal S128x12288 .f32) (s : Vec Ideal S21x12288 .f32) (p : Fin 128) (c : Fin 21) :
    matmul (F := Ideal) dot_S128x12288_S21x12288_S128x21_1_1_0_0_n_n none
      (truncf .bf16 (shapeCast S128x12288 a shapeCasts_S128x12288_S128x12288) bitsLt_bf16_f32)
      (truncf .bf16 (shapeCast S21x12288 s shapeCasts_S21x12288_S21x12288) bitsLt_bf16_f32)
      (constant S128x21 .f32 0x00000000#32) (ix2 p c) = res a s p c := by
  rw [shapeCast_self, shapeCast_self]
  exact Cert.MatmulAt.rows_rows dot_S128x12288_S21x12288_S128x21_1_1_0_0_n_n rfl rfl rfl rfl rfl rfl _ _ p c

/-- The stored block of aggregates at (p, q). -/
theorem pay2_apply (a : Vec Ideal S128x12288 .f32) (s : Vec Ideal S21x12288 .f32) (p : Fin 128) (q : Fin 18) :
    k0_pay2 (F := Ideal) a s (ix2 p q) = aggOf (res a s p) q := by
  have hq := q.isLt
  unfold k0_pay2
  rw [concat3_apply]
  unfold aggOf
  split
  · rename_i h6
    rw [slice2_axis1_apply 12 _ _ p ⟨q.val, h6⟩ ⟨q.val + 12, by omega⟩ (by show q.val + 12 = 12 + q.val; omega)]
    exact prod_apply a s p _
  · rename_i h6
    split
    · rename_i h12
      rw [mulf_apply, spread_apply,
        slice2_axis1_apply 6 _ _ p ⟨q.val - 6, by omega⟩ ⟨q.val, by omega⟩ (by show q.val = 6 + (q.val - 6); omega),
        slice2_axis1_apply 20 _ _ p (0 : Fin 1) (20 : Fin 21) rfl, prod_apply, prod_apply]
    · rename_i h12
      rw [mulf_apply, mulf_apply, spread_apply, spread_apply,
        slice2_axis1_apply 0 _ _ p ⟨q.val - 12, by omega⟩ ⟨q.val - 12, by omega⟩ (by show q.val - 12 = 0 + (q.val - 12); omega),
        slice2_axis1_apply 19 _ _ p (0 : Fin 1) (19 : Fin 21) rfl,
        slice2_axis1_apply 20 _ _ p (0 : Fin 1) (20 : Fin 21) rfl, prod_apply, prod_apply, prod_apply]

/-- When the 21 entries of a row of the product are the three steps' messages and row sums of agent `b`, the block's
    column formula is the specification's aggregate of `b`. -/
theorem aggOf_eq (R : Fin 21 → EReal) (a : (⟨3, ![4096, 4096, 3]⟩ : Shape).Idx → EReal) (X : Fin 4096 → Fin 3 → Fin 6 → EReal)
    (b : Fin 4096)
    (hmsg : ∀ (t' : Fin 3) (v : Fin 6), R ⟨6 * t'.val + v.val, by have := t'.isLt; have := v.isLt; omega⟩ = Cert.Spec.msg a X b t' v)
    (hrow : ∀ t' : Fin 3, R ⟨18 + t'.val, by have := t'.isLt; omega⟩ = Cert.Spec.rowSum a b t') (q : Fin 18) :
    aggOf R q = Cert.Spec.agg a X b q := by
  have hq := q.isLt
  have r19 : R 19 = Cert.Spec.rowSum a b 1 := (congrArg R (Fin.ext rfl)).trans (hrow 1)
  have r20 : R 20 = Cert.Spec.rowSum a b 2 := (congrArg R (Fin.ext rfl)).trans (hrow 2)
  unfold aggOf Cert.Spec.agg
  split
  · rename_i h6
    exact (congrArg R (Fin.ext (by show q.val + 12 = 6 * 2 + q.val; omega))).trans (hmsg 2 ⟨q.val, h6⟩)
  · rename_i h6
    split
    · rename_i h12
      rw [r20]
      exact congrArg (· * Cert.Spec.rowSum a b 2)
        ((congrArg R (Fin.ext (by show q.val = 6 * 1 + (q.val - 6); omega))).trans (hmsg 1 ⟨q.val - 6, by omega⟩))
    · rename_i h12
      rw [r19, r20]
      exact congrArg (· * Cert.Spec.rowSum a b 1 * Cert.Spec.rowSum a b 2)
        ((congrArg R (Fin.ext (by show q.val - 12 = 6 * 0 + (q.val - 12); omega))).trans (hmsg 0 ⟨q.val - 12, by omega⟩))

/-! ## The second store -/

/-- One dense layer as the body forms it — a product into a zero accumulator plus the bias row spread over the 128 rows —
    at an entry, for any input block `x`. -/
theorem layer_apply {K N : Nat} (d : DotDims ⟨2, ![128, K]⟩ ⟨2, ![K, N]⟩ ⟨2, ![128, N]⟩)
    (hc : d.lhsContracting = [1]) (hc' : d.rhsContracting = [0]) (hb : d.lhsBatch = []) (hb' : d.rhsBatch = [])
    (hn : d.lhsNonContracting = [0]) (hn' : d.rhsNonContracting = [1])
    (x : FVec Ideal ⟨2, ![128, K]⟩ .f32) (W : Vec Ideal ⟨2, ![K, N]⟩ .f32) (bias : Vec Ideal ⟨2, ![1, N]⟩ .f32)
    (hlt : FTy.bits .bf16 < FTy.bits .f32) (hs : (⟨2, ![1, N]⟩ : Shape).ShapeCasts ⟨2, ![1, N]⟩)
    (hbr : (⟨2, ![1, N]⟩ : Shape).Broadcasts ⟨2, ![128, N]⟩) (p : Fin 128) (n : Fin N) :
    addf (matmul d none (truncf .bf16 x hlt) (truncf .bf16 W hlt) (constant ⟨2, ![128, N]⟩ .f32 0x00000000#32))
        (broadcastTo ⟨2, ![128, N]⟩ (shapeCast ⟨2, ![1, N]⟩ bias hs) hbr) (ix2 p n)
      = Cert.Spec.dense (fun k n => W (ix2 k n)) (fun n => bias (ix2 (0 : Fin 1) n)) (fun k => x (ix2 p k)) n := by
  rw [addf_apply, shapeCast_self, broadcastTo_1b_ab_apply]
  unfold Cert.Spec.dense
  exact congrArg (· + bias (ix2 (0 : Fin 1) n)) (Cert.MatmulAt.rows_cols d hc hc' hb hb' hn hn' _ _ p n)

/-- The rectifier as the body forms it: the maximum with a zero spread over the block. -/
theorem relu_apply {s : Shape} (x : FVec Ideal s .f32) (i : s.Idx) :
    maximumf x (broadcast s (Scalar.ofBits .f32 0x00000000#32)) i = Cert.Spec.relu (x i) := by
  rw [maximumf_apply, broadcast_apply]
  unfold Cert.Spec.relu
  exact congrArg (max (x i)) Ideal.ofBits_zero_f32

/-- The second stored block at (p, o): the four layers on row `p` of the first stored block. -/
theorem pay1_apply (a : Vec Ideal S128x12288 .f32) (s : Vec Ideal S21x12288 .f32)
    (w0 : Vec Ideal S18x256 .f32) (c0 : Vec Ideal S1x256 .f32) (w1 : Vec Ideal S256x256 .f32) (c1 : Vec Ideal S1x256 .f32)
    (w2 : Vec Ideal S256x256 .f32) (c2 : Vec Ideal S1x256 .f32) (wp : Vec Ideal S256x2 .f32) (cp : Vec Ideal S1x2 .f32)
    (p : Fin 128) (o : Fin 2) :
    k0_pay1 (F := Ideal) (k0_pay3 a s w0 c0 w1 c1) (k0_pay4 (F := Ideal)) w2 c2 wp cp (ix2 p o)
      = Cert.Spec.mlp (fun k n => w0 (ix2 k n)) (fun n => c0 (ix2 (0 : Fin 1) n)) (fun k n => w1 (ix2 k n)) (fun n => c1 (ix2 (0 : Fin 1) n))
          (fun k n => w2 (ix2 k n)) (fun n => c2 (ix2 (0 : Fin 1) n)) (fun k n => wp (ix2 k n)) (fun n => cp (ix2 (0 : Fin 1) n))
          (fun c => k0_pay2 (F := Ideal) a s (ix2 p c)) o := by
  unfold k0_pay1 k0_pay3 k0_pay4 Cert.Spec.mlp
  dsimp only
  rw [layer_apply dot_S128x256_S256x2_S128x2_1_0_0_1_n_n rfl rfl rfl rfl rfl rfl]
  refine congrArg (fun f => Cert.Spec.dense _ _ f o) (funext fun k2 => ?_)
  rw [relu_apply, layer_apply dot_S128x256_S256x256_S128x256_1_0_0_1_n_n rfl rfl rfl rfl rfl rfl]
  refine congrArg (fun f => Cert.Spec.relu (Cert.Spec.dense _ _ f k2)) (funext fun k1 => ?_)
  rw [relu_apply, layer_apply dot_S128x256_S256x256_S128x256_1_0_0_1_n_n rfl rfl rfl rfl rfl rfl]
  refine congrArg (fun f => Cert.Spec.relu (Cert.Spec.dense _ _ f k1)) (funext fun k0 => ?_)
  rw [relu_apply, layer_apply dot_S128x18_S18x256_S128x256_1_0_0_1_n_n rfl rfl rfl rfl rfl rfl]

end Cert.Payload

end
-- ==== Proof.HostArrays.lean ====
/-
  The arrays the host builds before the kernel's one region, each read at an index as a function of the argument arrays.

  Write vis, a, Wv, bv for the first four arguments. The host
    * flattens vis to 12288 rows (row 3j+t is agent j at step t), multiplies by Wv, adds bv along every row and regroups:
      the projected observations X j t v = (∑ f, vis j t f · Wv f v) + bv v;
    * builds the 3 × 3 identity E by comparing a row counter with a column counter;
    * lays X against E:  (j, t, t', v) ↦ X j t v · E t t', flattened to 12288 rows of 18 columns (row 3j+t, column 6t'+v);
    * lays E alone:  (j, t, t') ↦ E t t', flattened to 12288 rows of 3 columns;
    * joins the two side by side (21 columns) and transposes: the selector, 21 rows of 12288 columns;
    * flattens the adjacency a to 4096 rows of 12288 columns (row b, column 3j+t);
    * writes each bias as a one-row matrix.
  Each stage is first stated as a function of its operands alone and read at an index there; the buffers the region finds
  are then those functions of the argument arrays.
-/
import proofs.«167796_j25305947308075_1_alg».proof.Proof.Spec
import proofs.«167796_j25305947308075_1_alg».proof.Proof.Gen.KernelIdeal.Frame
import proofs.«167796_j25305947308075_1_alg».proof.Proof.LibContraction
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelHost

open Idealize.ShloMosaic Idealize.ShloMosaic.ValueIdx Idealize.SL.Sem Cert.KernelIdeal Cert.KernelIdeal.Gen
open Idealize.ShloMosaic.TcCoe
open scoped BigOperators

/-! ## The stages as functions of their operands -/

/-- The projected observations as the host computes them: the flattened observations against the weights, the bias
    laid along every row, regrouped by agent and step. -/
def projArr (vis : S4096x3x36.Idx → EReal) (Wv : S36x6.Idx → EReal) (bv : S6.Idx → EReal) : S4096x3x6.Idx → EReal :=
  shapeCast S4096x3x6
    (addf
      (Host.dotGeneral (F := Ideal) (φ₁ := .f32) (φ₂ := .f32) dot_S12288x36_S36x6_S12288x6_1_0_0_1_n_n none
        (shapeCast S12288x36 vis shapeCasts_S4096x3x36_S12288x36 : FVec Ideal S12288x36 .f32) (Wv : FVec Ideal S36x6 .f32))
      (broadcastInDim S12288x6 ![0, 1] bcast_S1x6_S12288x6_0_1 (broadcastInDim S1x6 ![1] bcast_S6_S1x6_1 bv)) : FVec Ideal S12288x6 .f32)
    shapeCasts_S12288x6_S4096x3x6

/-- The 3 × 3 identity as the host computes it: the row counter (plus a zero) compared with the column counter, the
    bit read as a number. -/
def eye : S3x3.Idx → EReal :=
  (uitofp .f32 (cmpi .eq (addi (iotaInDim S3x3 32 0) (broadcastInDim S3x3 ![] bcast_S_S3x3 (constantI S_ 32 0#32))) (iotaInDim S3x3 32 1)) : FVec Ideal S3x3 .f32)

/-- The projected observations laid against the identity, 12288 rows of 18 columns. -/
def selMsgArr (X : S4096x3x6.Idx → EReal) : S12288x18.Idx → EReal :=
  shapeCast S12288x18
    (mulf
      (broadcastInDim S4096x3x3x6 ![0, 1, 2, 3] bcast_S4096x3x1x6_S4096x3x3x6_0_1_2_3
        (broadcastInDim S4096x3x1x6 ![0, 1, 3] bcast_S4096x3x6_S4096x3x1x6_0_1_3 X))
      (broadcastInDim S4096x3x3x6 ![0, 1, 2, 3] bcast_S1x3x3x1_S4096x3x3x6_0_1_2_3
        (broadcastInDim S1x3x3x1 ![1, 2] bcast_S3x3_S1x3x3x1_1_2 eye)) : FVec Ideal S4096x3x3x6 .f32)
    shapeCasts_S4096x3x3x6_S12288x18

/-- The identity repeated for every agent, 12288 rows of 3 columns. -/
def selRowArr : S12288x3.Idx → EReal :=
  shapeCast S12288x3
    (broadcastInDim S4096x3x3 ![0, 1, 2] bcast_S1x3x3_S4096x3x3_0_1_2 (broadcastInDim S1x3x3 ![1, 2] bcast_S3x3_S1x3x3_1_2 eye))
    shapeCasts_S4096x3x3_S12288x3

/-- The selector: the two joined side by side, transposed. -/
def selArr (X : S4096x3x6.Idx → EReal) : S21x12288.Idx → EReal :=
  transpose S21x12288 [1, 0]
    (concatenate S12288x21 1 [⟨S12288x18, selMsgArr X⟩, ⟨S12288x3, selRowArr⟩] concatenates_S12288x18_S12288x3_S12288x21_d1)
    transposes_S12288x21_S21x12288_1_0

/-! ## Each stage at an index -/

/-- A vector laid along the rows of a 12288 × 6 matrix reads its own entry in every row. -/
theorem biasRows_apply (bv : S6.Idx → EReal) (p : Fin 12288) (v : Fin 6) :
    broadcastInDim S12288x6 ![0, 1] bcast_S1x6_S12288x6_0_1 (broadcastInDim S1x6 ![1] bcast_S6_S1x6_1 bv) (ix2 p v) = bv (ix1 v) := by
  rw [broadcastInDim_apply _ _ _ (ix2 p v) (ix2 (0 : Fin 1) v) (fun a => by
    match a with
    | ⟨0, _⟩ => rfl
    | ⟨1, _⟩ => rfl)]
  exact broadcastInDim_apply _ _ _ (ix2 (0 : Fin 1) v) (ix1 v) (fun a => by
    match a with
    | ⟨0, _⟩ => rfl)

/-- The product of the flattened observations with the weights, at row 3j+t and column v, is the sum over the 36
    features. -/
theorem dot_apply (vis : S4096x3x36.Idx → EReal) (Wv : S36x6.Idx → EReal) (j : Fin 4096) (t : Fin 3) (v : Fin 6) :
    Host.dotGeneral (F := Ideal) (φ₁ := .f32) (φ₂ := .f32) dot_S12288x36_S36x6_S12288x6_1_0_0_1_n_n none
        (shapeCast S12288x36 vis shapeCasts_S4096x3x36_S12288x36 : FVec Ideal S12288x36 .f32) (Wv : FVec Ideal S36x6 .f32)
        (ix2 (Cert.Spec.flat j t) v)
      = ∑ f : Fin 36, vis (ix3 j t f) * Wv (ix2 f v) := by
  simp only [Host.dotGeneral]
  rw [Ideal.dotGeneral_apply]
  refine (Cert.Lib.Contraction.sum_contr dot_S12288x36_S36x6_S12288x6_1_0_0_1_n_n (cl := (1 : Fin S12288x36.rank)) rfl 36 rfl _).trans ?_
  refine Finset.sum_congr rfl fun f _ => ?_
  refine congrArg₂ (· * ·) ?_ ?_
  · -- the left factor: row 3j+t of the flattened observations at the contracted position f
    refine shapeCast_apply vis shapeCasts_S4096x3x36_S12288x36 _ (ix3 j t f) ?_
    have h0 := Cert.Lib.Contraction.lhs_free dot_S12288x36_S36x6_S12288x6_1_0_0_1_n_n (nl := (0 : Fin S12288x36.rank)) rfl rfl
      (ix2 (Cert.Spec.flat j t) v)
      ((Cert.Lib.Contraction.contrFin dot_S12288x36_S36x6_S12288x6_1_0_0_1_n_n (cl := (1 : Fin S12288x36.rank)) rfl 36 rfl).symm f) (by decide)
    have h1 := Cert.Lib.Contraction.lhs_contracted dot_S12288x36_S36x6_S12288x6_1_0_0_1_n_n (cl := (1 : Fin S12288x36.rank)) rfl 36 rfl
      (ix2 (Cert.Spec.flat j t) v) f
    rw [Shape.rowMajor_val_two, Shape.rowMajor_val_three, h0, h1]
    show (j.val * 3 + t.val) * 36 + f.val = (3 * j.val + t.val) * 36 + f.val
    omega
  · -- the right factor: the weights at (f, v)
    refine congrArg Wv (funext fun a => Fin.ext ?_)
    match a with
    | ⟨0, _⟩ =>
      exact Cert.Lib.Contraction.rhs_contracted dot_S12288x36_S36x6_S12288x6_1_0_0_1_n_n (cl := (1 : Fin S12288x36.rank))
        (cr := (0 : Fin S36x6.rank)) rfl rfl 36 rfl (ix2 (Cert.Spec.flat j t) v) f
    | ⟨1, _⟩ =>
      exact Cert.Lib.Contraction.rhs_free dot_S12288x36_S36x6_S12288x6_1_0_0_1_n_n (nl := (0 : Fin S12288x36.rank))
        (nr := (1 : Fin S36x6.rank)) rfl rfl rfl rfl (ix2 (Cert.Spec.flat j t) v) _ (by decide)

/-- The host's projected observations are the specification's. -/
theorem projArr_apply (vis : S4096x3x36.Idx → EReal) (Wv : S36x6.Idx → EReal) (bv : S6.Idx → EReal)
    (j : Fin 4096) (t : Fin 3) (v : Fin 6) :
    projArr vis Wv bv (ix3 j t v) = Cert.Spec.proj vis Wv bv j t v := by
  unfold projArr Cert.Spec.proj
  rw [shapeCast_apply _ shapeCasts_S12288x6_S4096x3x6 (ix3 j t v) (ix2 (Cert.Spec.flat j t) v) (by
    rw [Shape.rowMajor_val_two, Shape.rowMajor_val_three]
    show (3 * j.val + t.val) * 6 + v.val = (j.val * 3 + t.val) * 6 + v.val
    omega)]
  rw [addf_apply, dot_apply, biasRows_apply]

/-- The compared counters: one on the diagonal, zero off it. -/
theorem eye_apply (r s : Fin 3) : eye (ix2 r s) = Cert.Spec.delta r s := by
  have key : ∀ r s : Fin 3, IntOp.cmpi .eq (IntOp.addi (BitVec.ofNat 32 r.val) 0#32) (BitVec.ofNat 32 s.val)
      = if r = s then 1#1 else 0#1 := by decide
  show (((IntOp.cmpi .eq (IntOp.addi (BitVec.ofNat 32 r.val) 0#32) (BitVec.ofNat 32 s.val)).toNat : ℝ) : EReal) = _
  rw [key r s]
  unfold Cert.Spec.delta
  by_cases h : r = s
  · rw [if_pos h, if_pos h]; simp
  · rw [if_neg h, if_neg h]; simp

/-- Row 3j+t, column 6t'+v of the observations laid against the identity. -/
theorem selMsgArr_apply (X : S4096x3x6.Idx → EReal) (j : Fin 4096) (t t' : Fin 3) (v : Fin 6) :
    selMsgArr X (ix2 (Cert.Spec.flat j t) (⟨6 * t'.val + v.val, by have := t'.isLt; have := v.isLt; omega⟩ : Fin 18))
      = X (ix3 j t v) * eye (ix2 t t') := by
  unfold selMsgArr
  rw [shapeCast_apply _ shapeCasts_S4096x3x3x6_S12288x18 _ (ix4 j t t' v) (by
    rw [Shape.rowMajor_val_four, Shape.rowMajor_val_two]
    show ((j.val * 3 + t.val) * 3 + t'.val) * 6 + v.val = (3 * j.val + t.val) * 18 + (6 * t'.val + v.val)
    omega)]
  rw [mulf_apply]
  refine congrArg₂ (· * ·) ?_ ?_
  · rw [broadcastInDim_apply _ _ _ (ix4 j t t' v) (ix4 j t (0 : Fin 1) v) (fun a => by
      match a with
      | ⟨0, _⟩ => rfl
      | ⟨1, _⟩ => rfl
      | ⟨2, _⟩ => rfl
      | ⟨3, _⟩ => rfl)]
    exact broadcastInDim_apply _ _ _ (ix4 j t (0 : Fin 1) v) (ix3 j t v) (fun a => by
      match a with
      | ⟨0, _⟩ => rfl
      | ⟨1, _⟩ => rfl
      | ⟨2, _⟩ => rfl)
  · rw [broadcastInDim_apply _ _ _ (ix4 j t t' v) (ix4 (0 : Fin 1) t t' (0 : Fin 1)) (fun a => by
      match a with
      | ⟨0, _⟩ => rfl
      | ⟨1, _⟩ => rfl
      | ⟨2, _⟩ => rfl
      | ⟨3, _⟩ => rfl)]
    exact broadcastInDim_apply _ _ _ (ix4 (0 : Fin 1) t t' (0 : Fin 1)) (ix2 t t') (fun a => by
      match a with
      | ⟨0, _⟩ => rfl
      | ⟨1, _⟩ => rfl)

/-- Row 3j+t, column t' of the repeated identity. -/
theorem selRowArr_apply (j : Fin 4096) (t t' : Fin 3) :
    selRowArr (ix2 (Cert.Spec.flat j t) t') = eye (ix2 t t') := by
  unfold selRowArr
  rw [shapeCast_apply _ shapeCasts_S4096x3x3_S12288x3 _ (ix3 j t t') (by
    rw [Shape.rowMajor_val_three, Shape.rowMajor_val_two]
    show (j.val * 3 + t.val) * 3 + t'.val = (3 * j.val + t.val) * 3 + t'.val
    omega)]
  rw [broadcastInDim_apply _ _ _ (ix3 j t t') (ix3 (0 : Fin 1) t t') (fun a => by
    match a with
    | ⟨0, _⟩ => rfl
    | ⟨1, _⟩ => rfl
    | ⟨2, _⟩ => rfl)]
  exact broadcastInDim_apply _ _ _ (ix3 (0 : Fin 1) t t') (ix2 t t') (fun a => by
    match a with
    | ⟨0, _⟩ => rfl
    | ⟨1, _⟩ => rfl)

/-- Rows 0 … 17 of the selector. -/
theorem selArr_msg (X : S4096x3x6.Idx → EReal) (t' : Fin 3) (v : Fin 6) (j : Fin 4096) (t : Fin 3) :
    selArr X (ix2 (⟨6 * t'.val + v.val, by have := t'.isLt; have := v.isLt; omega⟩ : Fin 21) (Cert.Spec.flat j t))
      = X (ix3 j t v) * eye (ix2 t t') := by
  unfold selArr
  rw [transpose_ix2_apply]
  rw [concatenate_pair_apply_left (1 : Fin S12288x21.rank) (selMsgArr X) selRowArr concatenates_S12288x18_S12288x3_S12288x21_d1 _ rfl
    (ix2 (Cert.Spec.flat j t) (⟨6 * t'.val + v.val, by have := t'.isLt; have := v.isLt; omega⟩ : Fin 18)) (fun b => by
      match b with
      | ⟨0, _⟩ => rfl
      | ⟨1, _⟩ => rfl)]
  exact selMsgArr_apply X j t t' v

/-- Rows 18 … 20 of the selector. -/
theorem selArr_row (X : S4096x3x6.Idx → EReal) (t' : Fin 3) (j : Fin 4096) (t : Fin 3) :
    selArr X (ix2 (⟨18 + t'.val, by have := t'.isLt; omega⟩ : Fin 21) (Cert.Spec.flat j t)) = eye (ix2 t t') := by
  unfold selArr
  rw [transpose_ix2_apply]
  rw [concatenate_pair_apply_right (1 : Fin S12288x21.rank) (selMsgArr X) selRowArr concatenates_S12288x18_S12288x3_S12288x21_d1 _ rfl rfl
    (ix2 (Cert.Spec.flat j t) t') (fun b hb => by
      match b with
      | ⟨0, _⟩ => rfl
      | ⟨1, _⟩ => exact absurd rfl hb) (by
      show t'.val + 18 = 18 + t'.val
      omega)]
  exact selRowArr_apply j t t'

/-! ## The buffers the region finds -/

variable (m : (ℓ : Loc nD τ sig) → Buf (Elt Ideal) ℓ)

/-- The selector buffer is the selector of the argument arrays. -/
theorem sel_eq (c : Dev nD) :
    (V m c main_v22 : S21x12288.Idx → EReal)
      = selArr (projArr (m ((c : Thread nD τ).loc main_arg0)) (m ((c : Thread nD τ).loc main_arg2)) (m ((c : Thread nD τ).loc main_arg3))) := by
  dsimp only [Gen.V, Gen.hostOps0]
  after_results_simp
  rfl

/-- The flattened adjacency buffer. -/
theorem adj_eq (c : Dev nD) :
    (V m c main_v23 : S4096x12288.Idx → EReal)
      = shapeCast S4096x12288 (m ((c : Thread nD τ).loc main_arg1) : S4096x4096x3.Idx → EReal) shapeCasts_S4096x4096x3_S4096x12288 := by
  dsimp only [Gen.V, Gen.hostOps0]
  after_results
  rfl

/-- the flattened adjacency: row b, position 3j+t, is a b j t -/
theorem adj_apply (c : Dev nD) (b j : Fin 4096) (t : Fin 3) :
    (V m c main_v23 : S4096x12288.Idx → EReal) (ix2 b (Cert.Spec.flat j t))
      = (m ((c : Thread nD τ).loc main_arg1) : S4096x4096x3.Idx → EReal) (ix3 b j t) := by
  rw [adj_eq]
  refine shapeCast_apply _ shapeCasts_S4096x4096x3_S4096x12288 _ (ix3 b j t) ?_
  rw [Shape.rowMajor_val_three, Shape.rowMajor_val_two]
  show (b.val * 4096 + j.val) * 3 + t.val = b.val * 12288 + (3 * j.val + t.val)
  omega

/-- rows 0 … 17 of the selector: row 6t'+v at position 3j+t is X j t v on the diagonal t = t', zero off it -/
theorem sel_msg_apply (c : Dev nD) (t' : Fin 3) (v : Fin 6) (j : Fin 4096) (t : Fin 3) :
    (V m c main_v22 : S21x12288.Idx → EReal) (ix2 (⟨6 * t'.val + v.val, by have := t'.isLt; have := v.isLt; omega⟩ : Fin 21) (Cert.Spec.flat j t))
      = Cert.Spec.proj (m ((c : Thread nD τ).loc main_arg0)) (m ((c : Thread nD τ).loc main_arg2)) (m ((c : Thread nD τ).loc main_arg3)) j t v * Cert.Spec.delta t t' := by
  rw [sel_eq, selArr_msg, projArr_apply, eye_apply]

/-- rows 18 … 20 of the selector: row 18+t' at position 3j+t is one when t = t', zero otherwise -/
theorem sel_row_apply (c : Dev nD) (t' : Fin 3) (j : Fin 4096) (t : Fin 3) :
    (V m c main_v22 : S21x12288.Idx → EReal) (ix2 (⟨18 + t'.val, by have := t'.isLt; omega⟩ : Fin 21) (Cert.Spec.flat j t)) = Cert.Spec.delta t t' := by
  rw [sel_eq, selArr_row, eye_apply]

/-- the four biases as one-row matrices -/
theorem bias0_apply (c : Dev nD) (n : Fin 256) : (V m c main_v24 : S1x256.Idx → EReal) (ix2 (0 : Fin 1) n) = (m ((c : Thread nD τ).loc main_arg5) : S256.Idx → EReal) (ix1 n) := by
  have e : (V m c main_v24 : S1x256.Idx → EReal)
      = shapeCast S1x256 (m ((c : Thread nD τ).loc main_arg5) : S256.Idx → EReal) shapeCasts_S256_S1x256 := by
    dsimp only [Gen.V, Gen.hostOps0]; after_results; rfl
  rw [e]
  exact shapeCast_a_1a_apply _ shapeCasts_S256_S1x256 (0 : Fin 1) n
theorem bias1_apply (c : Dev nD) (n : Fin 256) : (V m c main_v25 : S1x256.Idx → EReal) (ix2 (0 : Fin 1) n) = (m ((c : Thread nD τ).loc main_arg7) : S256.Idx → EReal) (ix1 n) := by
  have e : (V m c main_v25 : S1x256.Idx → EReal)
      = shapeCast S1x256 (m ((c : Thread nD τ).loc main_arg7) : S256.Idx → EReal) shapeCasts_S256_S1x256 := by
    dsimp only [Gen.V, Gen.hostOps0]; after_results; rfl
  rw [e]
  exact shapeCast_a_1a_apply _ shapeCasts_S256_S1x256 (0 : Fin 1) n
theorem bias2_apply (c : Dev nD) (n : Fin 256) : (V m c main_v26 : S1x256.Idx → EReal) (ix2 (0 : Fin 1) n) = (m ((c : Thread nD τ).loc main_arg9) : S256.Idx → EReal) (ix1 n) := by
  have e : (V m c main_v26 : S1x256.Idx → EReal)
      = shapeCast S1x256 (m ((c : Thread nD τ).loc main_arg9) : S256.Idx → EReal) shapeCasts_S256_S1x256 := by
    dsimp only [Gen.V, Gen.hostOps0]; after_results; rfl
  rw [e]
  exact shapeCast_a_1a_apply _ shapeCasts_S256_S1x256 (0 : Fin 1) n
theorem biasp_apply (c : Dev nD) (n : Fin 2) : (V m c main_v27 : S1x2.Idx → EReal) (ix2 (0 : Fin 1) n) = (m ((c : Thread nD τ).loc main_arg11) : S2.Idx → EReal) (ix1 n) := by
  have e : (V m c main_v27 : S1x2.Idx → EReal)
      = shapeCast S1x2 (m ((c : Thread nD τ).loc main_arg11) : S2.Idx → EReal) shapeCasts_S2_S1x2 := by
    dsimp only [Gen.V, Gen.hostOps0]; after_results; rfl
  rw [e]
  exact shapeCast_a_1a_apply _ shapeCasts_S2_S1x2 (0 : Fin 1) n

end Cert.KernelHost

end
-- ==== Proof.KernelValue.lean ====
/-
  From the blocks each grid point writes to the two result arrays.

  Grid point `t` (of 32) works on agents 128·t … 128·t + 127: it reads rows 128·t + p of the flattened adjacency, the whole
  selector and the whole weights, and writes rows 128·t + p of both results. Row `p` of what it writes is the block formula
  of the payloads on those inputs; with the selector's rows read as the host built them, the one long contraction
  collapses to the three steps' messages and row sums of agent 128·t + p, so the block is the specification's rows. The 32
  blocks tile both result arrays (row `r` lies in point `r / 128`'s block), hence each array ends as the specification.
-/
import proofs.«167796_j25305947308075_1_alg».proof.Proof.Spec
import proofs.«167796_j25305947308075_1_alg».proof.Proof.Collapse
import proofs.«167796_j25305947308075_1_alg».proof.Proof.Payload
import proofs.«167796_j25305947308075_1_alg».proof.Proof.HostArrays
import proofs.«167796_j25305947308075_1_alg».proof.Proof.Gen.KernelIdeal.Value

set_option maxRecDepth 16384

noncomputable section

open scoped BigOperators

namespace Cert.KernelValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits, decided over the 32 points -/

theorem idx_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_w10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx_w11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx_w1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_w2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_w4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_w8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_w9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

theorem point_lt (t : Fin cfg0.N) : t.val < 32 := N_0 ▸ t.isLt

/-- The agent that row `p` of point `t`'s blocks belongs to. -/
def row (t : Fin cfg0.N) (p : Fin 128) : Fin 4096 := ⟨128 * t.val + p.val, by have := point_lt t; have := p.isLt; omega⟩

/-! ## The input blocks, read off the arrays the region finds -/

/-- Row `p` of the adjacency block at point `t` is row 128·t + p of the flattened adjacency. -/
theorem adjBlock (c : Dev nD) (t : Fin cfg0.N) (p : Fin 128) (k : Fin 12288) :
    (iblk m c 0 t : S128x12288.Idx → EReal) (ix2 p k) = (V m c main_v23 : S4096x12288.Idx → EReal) (ix2 (row t p) k) := by
  obtain ⟨e0, e1⟩ := idx_w0 t
  show (V m c main_v23 : S4096x12288.Idx → EReal) (((cfg0.win 0).blk t).view.emb (ix2 p k)) = _
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 12288 + 1 * k.val = k.val; omega

theorem whole1 (c : Dev nD) (t : Fin cfg0.N) (y : S21x12288.Idx) :
    (iblk m c 1 t : S21x12288.Idx → EReal) y = (V m c main_v22 : S21x12288.Idx → EReal) y := by
  obtain ⟨e0, e1⟩ := idx_w1 t
  show (V m c main_v22 : S21x12288.Idx → EReal) (((cfg0.win 1).blk t).view.emb y) = _
  refine congrArg _ (funext fun a => Fin.ext ?_)
  match a with
  | ⟨0, _⟩ => show win0_1.index t (0 : Fin 2) * 21 + 1 * (y 0).val = (y 0).val; omega
  | ⟨1, _⟩ => show win0_1.index t (1 : Fin 2) * 12288 + 1 * (y 1).val = (y 1).val; omega

theorem whole2 (c : Dev nD) (t : Fin cfg0.N) (y : S18x256.Idx) :
    (iblk m c 2 t : S18x256.Idx → EReal) y = (V m c main_arg4 : S18x256.Idx → EReal) y := by
  obtain ⟨e0, e1⟩ := idx_w2 t
  show (V m c main_arg4 : S18x256.Idx → EReal) (((cfg0.win 2).blk t).view.emb y) = _
  refine congrArg _ (funext fun a => Fin.ext ?_)
  match a with
  | ⟨0, _⟩ => show win0_2.index t (0 : Fin 2) * 18 + 1 * (y 0).val = (y 0).val; omega
  | ⟨1, _⟩ => show win0_2.index t (1 : Fin 2) * 256 + 1 * (y 1).val = (y 1).val; omega

theorem whole3 (c : Dev nD) (t : Fin cfg0.N) (y : S1x256.Idx) :
    (iblk m c 3 t : S1x256.Idx → EReal) y = (V m c main_v24 : S1x256.Idx → EReal) y := by
  obtain ⟨e0, e1⟩ := idx_w3 t
  show (V m c main_v24 : S1x256.Idx → EReal) (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem whole4 (c : Dev nD) (t : Fin cfg0.N) (y : S256x256.Idx) :
    (iblk m c 4 t : S256x256.Idx → EReal) y = (V m c main_arg6 : S256x256.Idx → EReal) y := by
  obtain ⟨e0, e1⟩ := idx_w4 t
  show (V m c main_arg6 : S256x256.Idx → EReal) (((cfg0.win 4).blk t).view.emb y) = _
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem whole5 (c : Dev nD) (t : Fin cfg0.N) (y : S1x256.Idx) :
    (iblk m c 5 t : S1x256.Idx → EReal) y = (V m c main_v25 : S1x256.Idx → EReal) y := by
  obtain ⟨e0, e1⟩ := idx_w5 t
  show (V m c main_v25 : S1x256.Idx → EReal) (((cfg0.win 5).blk t).view.emb y) = _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem whole6 (c : Dev nD) (t : Fin cfg0.N) (y : S256x256.Idx) :
    (iblk m c 6 t : S256x256.Idx → EReal) y = (V m c main_arg8 : S256x256.Idx → EReal) y := by
  obtain ⟨e0, e1⟩ := idx_w6 t
  show (V m c main_arg8 : S256x256.Idx → EReal) (((cfg0.win 6).blk t).view.emb y) = _
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 256 + 1 * (y 1).val = (y 1).val; omega

theorem whole7 (c : Dev nD) (t : Fin cfg0.N) (y : S1x256.Idx) :
    (iblk m c 7 t : S1x256.Idx → EReal) y = (V m c main_v26 : S1x256.Idx → EReal) y := by
  obtain ⟨e0, e1⟩ := idx_w7 t
  show (V m c main_v26 : S1x256.Idx → EReal) (((cfg0.win 7).blk t).view.emb y) = _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 256 + 1 * (y 1).val = (y 1).val; omega

theorem whole8 (c : Dev nD) (t : Fin cfg0.N) (y : S256x2.Idx) :
    (iblk m c 8 t : S256x2.Idx → EReal) y = (V m c main_arg10 : S256x2.Idx → EReal) y := by
  obtain ⟨e0, e1⟩ := idx_w8 t
  show (V m c main_arg10 : S256x2.Idx → EReal) (((cfg0.win 8).blk t).view.emb y) = _
  refine congrArg _ (funext fun a => Fin.ext ?_)
  match a with
  | ⟨0, _⟩ => show win0_8.index t (0 : Fin 2) * 256 + 1 * (y 0).val = (y 0).val; omega
  | ⟨1, _⟩ => show win0_8.index t (1 : Fin 2) * 2 + 1 * (y 1).val = (y 1).val; omega

theorem whole9 (c : Dev nD) (t : Fin cfg0.N) (y : S1x2.Idx) :
    (iblk m c 9 t : S1x2.Idx → EReal) y = (V m c main_v27 : S1x2.Idx → EReal) y := by
  obtain ⟨e0, e1⟩ := idx_w9 t
  show (V m c main_v27 : S1x2.Idx → EReal) (((cfg0.win 9).blk t).view.emb y) = _
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 2 + 1 * (y 1).val = (y 1).val; omega

/-! ## One row of the long contraction is one agent's messages and row sums -/

/-- The argument arrays, as the specification reads them. -/
abbrev argVis (c : Dev nD) : S4096x3x36.Idx → EReal := m ((c : Thread nD τ).loc main_arg0)
abbrev argAdj (c : Dev nD) : S4096x4096x3.Idx → EReal := m ((c : Thread nD τ).loc main_arg1)
abbrev argWv (c : Dev nD) : S36x6.Idx → EReal := m ((c : Thread nD τ).loc main_arg2)
abbrev argBv (c : Dev nD) : S6.Idx → EReal := m ((c : Thread nD τ).loc main_arg3)

/-- The projected observations of the specification at this memory. -/
abbrev obs (c : Dev nD) : Fin 4096 → Fin 3 → Fin 6 → EReal := Cert.Spec.proj (argVis m c) (argWv m c) (argBv m c)

/-- The adjacency block and the selector at point `t`, at their literal types. -/
abbrev adjBlk (c : Dev nD) (t : Fin cfg0.N) : S128x12288.Idx → EReal := iblk m c 0 t
abbrev selBlk (c : Dev nD) (t : Fin cfg0.N) : S21x12288.Idx → EReal := iblk m c 1 t

/-- Column 6t' + v of row `p` of the product at point `t` is the step-t' message of agent 128·t + p. -/
theorem res_msg (c : Dev nD) (t : Fin cfg0.N) (p : Fin 128) (t' : Fin 3) (v : Fin 6) :
    Cert.Payload.res (adjBlk m c t) (selBlk m c t) p ⟨6 * t'.val + v.val, by have := t'.isLt; have := v.isLt; omega⟩
      = Cert.Spec.msg (argAdj m c) (obs m c) (row t p) t' v := by
  unfold Cert.Payload.res Cert.Spec.msg
  refine Cert.Collapse.sum_flat_msg (fun j s => argAdj m c (ix3 (row t p) j s)) (fun j s => obs m c j s v) t' _ fun j s => ?_
  exact congrArg₂ (fun x y : EReal => x * y)
    ((adjBlock m c t p (Cert.Spec.flat j s)).trans (Cert.KernelHost.adj_apply m c (row t p) j s))
    ((whole1 m c t _).trans (Cert.KernelHost.sel_msg_apply m c t' v j s))

/-- Column 18 + t' of that row is the step-t' row sum of agent 128·t + p. -/
theorem res_row (c : Dev nD) (t : Fin cfg0.N) (p : Fin 128) (t' : Fin 3) :
    Cert.Payload.res (adjBlk m c t) (selBlk m c t) p ⟨18 + t'.val, by have := t'.isLt; omega⟩
      = Cert.Spec.rowSum (argAdj m c) (row t p) t' := by
  unfold Cert.Payload.res Cert.Spec.rowSum
  refine Cert.Collapse.sum_flat_row (fun j s => argAdj m c (ix3 (row t p) j s)) t' _ fun j s => ?_
  exact congrArg₂ (fun x y : EReal => x * y)
    ((adjBlock m c t p (Cert.Spec.flat j s)).trans (Cert.KernelHost.adj_apply m c (row t p) j s))
    ((whole1 m c t _).trans (Cert.KernelHost.sel_row_apply m c t' j s))

/-- Row `p` of the first stored block at point `t` is the aggregate of agent 128·t + p. -/
theorem aggBlock (c : Dev nD) (t : Fin cfg0.N) (p : Fin 128) (q : Fin 18) :
    k0_pay2 (F := Ideal) (iblk m c 0 t) (iblk m c 1 t) (ix2 p q) = Cert.Spec.agg (argAdj m c) (obs m c) (row t p) q :=
  (Cert.Payload.pay2_apply (iblk m c 0 t) (iblk m c 1 t) p q).trans
    (Cert.Payload.aggOf_eq (Cert.Payload.res (adjBlk m c t) (selBlk m c t) p) (argAdj m c) (obs m c) (row t p)
      (fun t' v => res_msg m c t p t' v) (fun t' => res_row m c t p t') q)

/-! ## What each point writes back is its block of the specification -/

/-- Point `t`'s block of a result with `n` columns starts at row 128·t. -/
theorem emb10 (t : Fin cfg0.N) (p : Fin 128) (q : Fin 18) :
    ((cfg0.win 10).blk t).view.emb (ix2 p q) = (ix2 (row t p) q : S4096x18.Idx) := by
  obtain ⟨e0, e1⟩ := idx_w10 t
  refine funext fun a => Fin.ext ?_
  match a with
  | ⟨0, _⟩ => show win0_10.index t (0 : Fin 2) * 128 + 1 * p.val = 128 * t.val + p.val; omega
  | ⟨1, _⟩ => show win0_10.index t (1 : Fin 2) * 18 + 1 * q.val = q.val; omega

theorem emb11 (t : Fin cfg0.N) (p : Fin 128) (o : Fin 2) :
    ((cfg0.win 11).blk t).view.emb (ix2 p o) = (ix2 (row t p) o : S4096x2.Idx) := by
  obtain ⟨e0, e1⟩ := idx_w11 t
  refine funext fun a => Fin.ext ?_
  match a with
  | ⟨0, _⟩ => show win0_11.index t (0 : Fin 2) * 128 + 1 * p.val = 128 * t.val + p.val; omega
  | ⟨1, _⟩ => show win0_11.index t (1 : Fin 2) * 2 + 1 * o.val = o.val; omega

/-- The first result, as the specification gives it at this memory. -/
abbrev specAgg (c : Dev nD) : S4096x18.Idx → EReal := Cert.Spec.aggAll (argVis m c) (argAdj m c) (argWv m c) (argBv m c)

/-- The second result likewise. -/
abbrev specOut (c : Dev nD) : S4096x2.Idx → EReal :=
  Cert.Spec.outAll (argVis m c) (argAdj m c) (argWv m c) (argBv m c)
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

theorem flushed10_eq (c : Dev nD) (t : Fin cfg0.N) :
    (dats m 0 c).flushed 10 t = ((cfg0.win 10).blk t).view.read (Elt Ideal) (specAgg m c) := by
  rw [Cert.KernelIdeal.Value.flushed10]
  unfold out0_10
  rw [View.canon_unit_zero hz]
  simp only [View.ld_unit_zero (S := S128x12288) hz, View.ld_unit_zero (S := S21x12288) hz]
  funext y
  obtain ⟨p, q, rfl⟩ : ∃ (p : Fin 128) (q : Fin 18), y = ix2 p q := ⟨y 0, y 1, eq_ix2 y⟩
  show k0_pay2 (F := Ideal) (iblk m c 0 t) (iblk m c 1 t) (ix2 p q) = specAgg m c (((cfg0.win 10).blk t).view.emb (ix2 p q))
  rw [emb10]
  exact aggBlock m c t p q

/-- Equal layers on equal rows give equal outputs. -/
theorem mlp_congr {W0 W0' : Fin 18 → Fin 256 → EReal} {b0 b0' : Fin 256 → EReal} {W1 W1' : Fin 256 → Fin 256 → EReal}
    {b1 b1' : Fin 256 → EReal} {W2 W2' : Fin 256 → Fin 256 → EReal} {b2 b2' : Fin 256 → EReal}
    {Wp Wp' : Fin 256 → Fin 2 → EReal} {bp bp' : Fin 2 → EReal} {x x' : Fin 18 → EReal} (o : Fin 2)
    (e0 : W0 = W0') (f0 : b0 = b0') (e1 : W1 = W1') (f1 : b1 = b1') (e2 : W2 = W2') (f2 : b2 = b2')
    (ep : Wp = Wp') (fp : bp = bp') (ex : x = x') :
    Cert.Spec.mlp W0 b0 W1 b1 W2 b2 Wp bp x o = Cert.Spec.mlp W0' b0' W1' b1' W2' b2' Wp' bp' x' o := by
  subst e0 f0 e1 f1 e2 f2 ep fp ex; rfl

theorem flushed11_eq (c : Dev nD) (t : Fin cfg0.N) :
    (dats m 0 c).flushed 11 t = ((cfg0.win 11).blk t).view.read (Elt Ideal) (specOut m c) := by
  rw [Cert.KernelIdeal.Value.flushed11]
  unfold out0_11
  rw [View.canon_unit_zero hz]
  simp only [View.ld_unit_zero (S := S128x12288) hz, View.ld_unit_zero (S := S21x12288) hz, View.ld_unit_zero (S := S18x256) hz,
    View.ld_unit_zero (S := S1x256) hz, View.ld_unit_zero (S := S256x256) hz, View.ld_unit_zero (S := S256x2) hz,
    View.ld_unit_zero (S := S1x2) hz]
  funext y
  obtain ⟨p, o, rfl⟩ : ∃ (p : Fin 128) (o : Fin 2), y = ix2 p o := ⟨y 0, y 1, eq_ix2 y⟩
  show k0_pay1 (F := Ideal) (k0_pay3 (iblk m c 0 t) (iblk m c 1 t) (iblk m c 2 t) (iblk m c 3 t) (iblk m c 4 t) (iblk m c 5 t))
      (k0_pay4 (F := Ideal)) (iblk m c 6 t) (iblk m c 7 t) (iblk m c 8 t) (iblk m c 9 t) (ix2 p o)
    = specOut m c (((cfg0.win 11).blk t).view.emb (ix2 p o))
  rw [emb11]
  refine (Cert.Payload.pay1_apply (iblk m c 0 t) (iblk m c 1 t) (iblk m c 2 t) (iblk m c 3 t) (iblk m c 4 t) (iblk m c 5 t)
    (iblk m c 6 t) (iblk m c 7 t) (iblk m c 8 t) (iblk m c 9 t) p o).trans ?_
  refine mlp_congr o
    (funext fun k => funext fun n => (whole2 m c t (ix2 k n)).trans (congrFun (V_main_arg4 m c) (ix2 k n)))
    (funext fun n => (whole3 m c t (ix2 (0 : Fin 1) n)).trans (Cert.KernelHost.bias0_apply m c n))
    (funext fun k => funext fun n => (whole4 m c t (ix2 k n)).trans (congrFun (V_main_arg6 m c) (ix2 k n)))
    (funext fun n => (whole5 m c t (ix2 (0 : Fin 1) n)).trans (Cert.KernelHost.bias1_apply m c n))
    (funext fun k => funext fun n => (whole6 m c t (ix2 k n)).trans (congrFun (V_main_arg8 m c) (ix2 k n)))
    (funext fun n => (whole7 m c t (ix2 (0 : Fin 1) n)).trans (Cert.KernelHost.bias2_apply m c n))
    (funext fun k => funext fun n => (whole8 m c t (ix2 k n)).trans (congrFun (V_main_arg10 m c) (ix2 k n)))
    (funext fun n => (whole9 m c t (ix2 (0 : Fin 1) n)).trans (Cert.KernelHost.biasp_apply m c n))
    (funext fun q => aggBlock m c t p q)

/-! ## The blocks tile the result arrays -/

theorem mem_blk10 (t : Fin cfg0.N) (i : S4096x18.Idx) :
    i ∈ ((cfg0.win 10).blk t).view.set ↔ ∀ a : Fin 2, win0_10.index t a * S128x18.size a ≤ (i a).val ∧ (i a).val < win0_10.index t a * S128x18.size a + S128x18.size a := by
  show i ∈ ((View.whole main_v28_0).slice (win0_10.rect t)).set ↔ _
  rw [View.set_slice_whole, Rect.mem_set_unit]
  exact Iff.rfl

theorem mem_blk11 (t : Fin cfg0.N) (i : S4096x2.Idx) :
    i ∈ ((cfg0.win 11).blk t).view.set ↔ ∀ a : Fin 2, win0_11.index t a * S128x2.size a ≤ (i a).val ∧ (i a).val < win0_11.index t a * S128x2.size a + S128x2.size a := by
  show i ∈ ((View.whole main_v28_1).slice (win0_11.rect t)).set ↔ _
  rw [View.set_slice_whole, Rect.mem_set_unit]
  exact Iff.rfl

/-- Row `r` of the first result lies in the block of point `r / 128`. -/
theorem cover10 (i : S4096x18.Idx) : ∃ t : Fin cfg0.N, (cfg0.win 10).flush t = true ∧ i ∈ ((cfg0.win 10).blk t).view.set := by
  have hi0 : (i 0).val < 4096 := (i 0).isLt
  have hi1 : (i 1).val < 18 := (i 1).isLt
  have hN : cfg0.N = 32 := N_0
  refine ⟨⟨(i 0).val / 128, by rw [hN]; omega⟩, flush0_10 _, ?_⟩
  obtain ⟨e0, e1⟩ := idx_w10 ⟨(i 0).val / 128, by rw [hN]; omega⟩
  rw [mem_blk10]
  intro a
  match a with
  | ⟨0, _⟩ =>
    show win0_10.index _ (0 : Fin 2) * 128 ≤ (i 0).val ∧ (i 0).val < win0_10.index _ (0 : Fin 2) * 128 + 128
    rw [e0]; show (i 0).val / 128 * 128 ≤ (i 0).val ∧ (i 0).val < (i 0).val / 128 * 128 + 128; omega
  | ⟨1, _⟩ =>
    show win0_10.index _ (1 : Fin 2) * 18 ≤ (i 1).val ∧ (i 1).val < win0_10.index _ (1 : Fin 2) * 18 + 18
    rw [e1]; omega

theorem cover11 (i : S4096x2.Idx) : ∃ t : Fin cfg0.N, (cfg0.win 11).flush t = true ∧ i ∈ ((cfg0.win 11).blk t).view.set := by
  have hi0 : (i 0).val < 4096 := (i 0).isLt
  have hi1 : (i 1).val < 2 := (i 1).isLt
  have hN : cfg0.N = 32 := N_0
  refine ⟨⟨(i 0).val / 128, by rw [hN]; omega⟩, flush0_11 _, ?_⟩
  obtain ⟨e0, e1⟩ := idx_w11 ⟨(i 0).val / 128, by rw [hN]; omega⟩
  rw [mem_blk11]
  intro a
  match a with
  | ⟨0, _⟩ =>
    show win0_11.index _ (0 : Fin 2) * 128 ≤ (i 0).val ∧ (i 0).val < win0_11.index _ (0 : Fin 2) * 128 + 128
    rw [e0]; show (i 0).val / 128 * 128 ≤ (i 0).val ∧ (i 0).val < (i 0).val / 128 * 128 + 128; omega
  | ⟨1, _⟩ =>
    show win0_11.index _ (1 : Fin 2) * 2 ≤ (i 1).val ∧ (i 1).val < win0_11.index _ (1 : Fin 2) * 2 + 2
    rw [e1]; omega

/-! ## The arrays after the run -/

theorem final10 (c : Dev nD) : (dats m 0 c).arrAt 10 cfg0.N = specAgg m c :=
  (dats m 0 c).arrAt_eq_of_cover 10 (specAgg m c) (fun t _ => flushed10_eq m c t) cover10

theorem final11 (c : Dev nD) : (dats m 0 c).arrAt 11 cfg0.N = specOut m c :=
  (dats m 0 c).arrAt_eq_of_cover 11 (specOut m c) (fun t _ => flushed11_eq m c t) cover11

/-- The kernel program's run: both result arrays end as the specification of the arguments, the arguments unchanged. -/
theorem run : θ_run defs (onTc (τ := τ) (main (F := Ideal))) ⟨m, fun _ => 0, ρ⟩ fun r => ∀ c : Dev nD,
      r.2.mem ((c : Thread nD τ).loc main_v28_0) = specAgg m c
      ∧ r.2.mem ((c : Thread nD τ).loc main_v28_1) = specOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final10 m c), (h c).2.1.trans (final11 m c), (h c).2.2⟩)
    (Cert.KernelIdeal.Value.run_blocks m ρ)

end Cert.KernelValue

end
-- ==== Proof.RefValue.lean ====
/-
  The reference program's two results, read index by index, are the two specification functions.

  The program runs three steps t = 0, 1, 2.  Step t takes the slice a[:, :, t] of the adjacency and the slice
  vis[:, t, :] of the observations, projects the observations (X_t = vis_t · Wv + bv), forms the message
  msg_t = a_t · X_t and the row sums rs_t of a_t, and builds a new aggregate of eighteen columns: the message in
  columns 0 … 5, and in columns 6 … 17 the previous aggregate's columns 0 … 11 scaled by rs_t.  Starting from the
  zero aggregate, after the three steps the columns are msg_2, msg_1 · rs_2 and (msg_0 · rs_1) · rs_2: the zero
  columns scaled at step 0 are cut off by the later steps' slices and never reach the result.  Each of the four
  dense layers reads as a finite sum plus a bias, and the rectifier as the maximum with zero.
-/
import proofs.«167796_j25305947308075_1_alg».proof.Proof.Spec
import proofs.«167796_j25305947308075_1_alg».proof.Proof.RefRead
import Idealize.ShloMosaic.Lib.Pipeline.Value
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.ReferenceIdeal.ReadP

/-! ## A two-piece concatenation along the columns, and the slice of the first twelve columns -/

/-- A column below six of the joined array is that column of the first piece. -/
theorem cat_left {α : Type} (x : S4096x6.Idx → α) (y : S4096x12.Idx → α)
    (h : Shape.Concatenates [S4096x6, S4096x12] S4096x18 1) (b : Fin 4096) (c : Fin 18) (c₁ : Fin 6)
    (hc : c.val = c₁.val) :
    concatenate S4096x18 1 [⟨S4096x6, x⟩, ⟨S4096x12, y⟩] h (ix2 b c) = x (ix2 b c₁) :=
  concatenate_pair_apply_left 1 x y h _ rfl _ (fun a => by
    match a with
    | ⟨0, _⟩ => rfl
    | ⟨1, _⟩ => exact hc.symm)

/-- A column from six on of the joined array is the second piece's column six to the left. -/
theorem cat_right {α : Type} (x : S4096x6.Idx → α) (y : S4096x12.Idx → α)
    (h : Shape.Concatenates [S4096x6, S4096x12] S4096x18 1) (b : Fin 4096) (c : Fin 18) (c₂ : Fin 12)
    (hc : c₂.val + 6 = c.val) :
    concatenate S4096x18 1 [⟨S4096x6, x⟩, ⟨S4096x12, y⟩] h (ix2 b c) = y (ix2 b c₂) :=
  concatenate_pair_apply_right 1 x y h _ rfl rfl _
    (fun a ha => by
      match a with
      | ⟨0, _⟩ => rfl
      | ⟨1, _⟩ => exact absurd rfl ha)
    hc

/-! ## Step 0 -/

section step0

variable (x0 : (⟨S4096x3x36, .f32⟩ : BufTy).Contents (Elt Ideal)) (x1 : (⟨S4096x4096x3, .f32⟩ : BufTy).Contents (Elt Ideal))
  (x2 : (⟨S36x6, .f32⟩ : BufTy).Contents (Elt Ideal)) (x3 : (⟨S6, .f32⟩ : BufTy).Contents (Elt Ideal))

/-- The step's adjacency slice at (b, j) is a[b, j, 0]. -/
theorem adj0 (b j : Fin 4096) : val_main_v2 (F := Ideal) x1 (ix2 b j) = x1 (ix3 b j (0 : Fin 3)) := by
  rw [val_main_v2_apply, val_main_v1_apply]
  congr 1
  funext a
  match a with
  | ⟨0, _⟩ => exact Fin.ext (by show (b.val * 4096 + j.val) / 4096 = b.val; have := j.isLt; omega)
  | ⟨1, _⟩ => exact Fin.ext (by show (b.val * 4096 + j.val) / 1 % 4096 = j.val; have := j.isLt; omega)
  | ⟨2, _⟩ => exact Fin.ext (by show 0 = 0; rfl)

/-- The step's observation slice at (j, f) is vis[j, 0, f]. -/
theorem vis0 (j : Fin 4096) (f : Fin 36) : val_main_v4 (F := Ideal) x0 (ix2 j f) = x0 (ix3 j (0 : Fin 3) f) := by
  rw [val_main_v4_apply, val_main_v3_apply]
  congr 1
  funext a
  match a with
  | ⟨0, _⟩ => exact Fin.ext (by show (j.val * 36 + f.val) / 36 = j.val; have := f.isLt; omega)
  | ⟨1, _⟩ => exact Fin.ext (by show 0 = 0; rfl)
  | ⟨2, _⟩ => exact Fin.ext (by show (j.val * 36 + f.val) % 36 = f.val; have := f.isLt; omega)

/-- The bias broadcast over the agents at (j, v) is bv[v]. -/
theorem bias0 (j : Fin 4096) (v : Fin 6) : val_main_v7 (F := Ideal) x3 (ix2 j v) = x3 (ix1 v) := by
  rw [val_main_v7_apply, val_main_v6_apply]
  congr 1
  funext a
  match a with
  | ⟨0, _⟩ => rfl

/-- The step's projected observations. -/
theorem proj0 (j : Fin 4096) (v : Fin 6) :
    val_main_v8 (F := Ideal) x0 x2 x3 (ix2 j v) = Cert.Spec.proj x0 x2 x3 j (0 : Fin 3) v := by
  have hl : ∀ k : Fin 36, lidx_main_v5 (ix2 j v) k = ix2 j k := fun k =>
    funext fun a => by match a with | ⟨0, _⟩ => rfl | ⟨1, _⟩ => rfl
  have hr : ∀ k : Fin 36, ridx_main_v5 (ix2 j v) k = ix2 k v := fun k =>
    funext fun a => by match a with | ⟨0, _⟩ => rfl | ⟨1, _⟩ => rfl
  rw [val_main_v8_apply, val_main_v5_apply, bias0, Ideal.addf_def]
  unfold Cert.Spec.proj
  congr 1
  exact Finset.sum_congr rfl fun k _ => by rw [hl, hr, vis0]

/-- The step's message. -/
theorem msg0 (b : Fin 4096) (v : Fin 6) :
    val_main_v9 (F := Ideal) x0 x1 x2 x3 (ix2 b v) =
      Cert.Spec.msg x1 (Cert.Spec.proj x0 x2 x3) b (0 : Fin 3) v := by
  have hl : ∀ k : Fin 4096, lidx_main_v9 (ix2 b v) k = ix2 b k := fun k =>
    funext fun a => by match a with | ⟨0, _⟩ => rfl | ⟨1, _⟩ => rfl
  have hr : ∀ k : Fin 4096, ridx_main_v9 (ix2 b v) k = ix2 k v := fun k =>
    funext fun a => by match a with | ⟨0, _⟩ => rfl | ⟨1, _⟩ => rfl
  rw [val_main_v9_apply]
  unfold Cert.Spec.msg
  exact Finset.sum_congr rfl fun k _ => by rw [hl, hr, adj0, proj0]

/-- The step's row sums: the sum starts from the zero word, which is 0. -/
theorem rs0 (b : Fin 4096) : val_main_v11 (F := Ideal) x1 (ix1 b) = Cert.Spec.rowSum x1 b (0 : Fin 3) := by
  have hi : ∀ k : Fin 4096, idx_main_v11 (ix1 b) k = ix2 b k := fun k =>
    funext fun a => by match a with | ⟨0, _⟩ => rfl | ⟨1, _⟩ => rfl
  rw [val_main_v11_apply, val_main_cst_0_apply, Ideal.ofBits_def, Ideal.ofBits_zero_f32, zero_add]
  unfold Cert.Spec.rowSum
  exact Finset.sum_congr rfl fun k _ => by rw [hi, adj0]

/-- The row sums broadcast over twelve columns. -/
theorem rsb0 (b : Fin 4096) (c : Fin 12) :
    val_main_v13 (F := Ideal) x1 (ix2 b c) = Cert.Spec.rowSum x1 b (0 : Fin 3) := by
  rw [val_main_v13_apply, val_main_v12_apply, ← rs0]
  congr 1
  funext a
  match a with
  | ⟨0, _⟩ => rfl

end step0

/-! ## Step 1 -/

section step1

variable (x0 : (⟨S4096x3x36, .f32⟩ : BufTy).Contents (Elt Ideal)) (x1 : (⟨S4096x4096x3, .f32⟩ : BufTy).Contents (Elt Ideal))
  (x2 : (⟨S36x6, .f32⟩ : BufTy).Contents (Elt Ideal)) (x3 : (⟨S6, .f32⟩ : BufTy).Contents (Elt Ideal))

/-- The step's adjacency slice at (b, j) is a[b, j, 1]. -/
theorem adj1 (b j : Fin 4096) : val_main_v17 (F := Ideal) x1 (ix2 b j) = x1 (ix3 b j (1 : Fin 3)) := by
  rw [val_main_v17_apply, val_main_v16_apply]
  congr 1
  funext a
  match a with
  | ⟨0, _⟩ => exact Fin.ext (by show (b.val * 4096 + j.val) / 4096 = b.val; have := j.isLt; omega)
  | ⟨1, _⟩ => exact Fin.ext (by show (b.val * 4096 + j.val) / 1 % 4096 = j.val; have := j.isLt; omega)
  | ⟨2, _⟩ => exact Fin.ext (by show 1 + 0 = 1; rfl)

/-- The step's observation slice at (j, f) is vis[j, 1, f]. -/
theorem vis1 (j : Fin 4096) (f : Fin 36) : val_main_v19 (F := Ideal) x0 (ix2 j f) = x0 (ix3 j (1 : Fin 3) f) := by
  rw [val_main_v19_apply, val_main_v18_apply]
  congr 1
  funext a
  match a with
  | ⟨0, _⟩ => exact Fin.ext (by show (j.val * 36 + f.val) / 36 = j.val; have := f.isLt; omega)
  | ⟨1, _⟩ => exact Fin.ext (by show 1 + 0 = 1; rfl)
  | ⟨2, _⟩ => exact Fin.ext (by show (j.val * 36 + f.val) % 36 = f.val; have := f.isLt; omega)

/-- The bias broadcast over the agents at (j, v) is bv[v]. -/
theorem bias1 (j : Fin 4096) (v : Fin 6) : val_main_v22 (F := Ideal) x3 (ix2 j v) = x3 (ix1 v) := by
  rw [val_main_v22_apply, val_main_v21_apply]
  congr 1
  funext a
  match a with
  | ⟨0, _⟩ => rfl

/-- The step's projected observations. -/
theorem proj1 (j : Fin 4096) (v : Fin 6) :
    val_main_v23 (F := Ideal) x0 x2 x3 (ix2 j v) = Cert.Spec.proj x0 x2 x3 j (1 : Fin 3) v := by
  have hl : ∀ k : Fin 36, lidx_main_v20 (ix2 j v) k = ix2 j k := fun k =>
    funext fun a => by match a with | ⟨0, _⟩ => rfl | ⟨1, _⟩ => rfl
  have hr : ∀ k : Fin 36, ridx_main_v20 (ix2 j v) k = ix2 k v := fun k =>
    funext fun a => by match a with | ⟨0, _⟩ => rfl | ⟨1, _⟩ => rfl
  rw [val_main_v23_apply, val_main_v20_apply, bias1, Ideal.addf_def]
  unfold Cert.Spec.proj
  congr 1
  exact Finset.sum_congr rfl fun k _ => by rw [hl, hr, vis1]

/-- The step's message. -/
theorem msg1 (b : Fin 4096) (v : Fin 6) :
    val_main_v24 (F := Ideal) x0 x1 x2 x3 (ix2 b v) =
      Cert.Spec.msg x1 (Cert.Spec.proj x0 x2 x3) b (1 : Fin 3) v := by
  have hl : ∀ k : Fin 4096, lidx_main_v24 (ix2 b v) k = ix2 b k := fun k =>
    funext fun a => by match a with | ⟨0, _⟩ => rfl | ⟨1, _⟩ => rfl
  have hr : ∀ k : Fin 4096, ridx_main_v24 (ix2 b v) k = ix2 k v := fun k =>
    funext fun a => by match a with | ⟨0, _⟩ => rfl | ⟨1, _⟩ => rfl
  rw [val_main_v24_apply]
  unfold Cert.Spec.msg
  exact Finset.sum_congr rfl fun k _ => by rw [hl, hr, adj1, proj1]

/-- The step's row sums: the sum starts from the zero word, which is 0. -/
theorem rs1 (b : Fin 4096) : val_main_v26 (F := Ideal) x1 (ix1 b) = Cert.Spec.rowSum x1 b (1 : Fin 3) := by
  have hi : ∀ k : Fin 4096, idx_main_v26 (ix1 b) k = ix2 b k := fun k =>
    funext fun a => by match a with | ⟨0, _⟩ => rfl | ⟨1, _⟩ => rfl
  rw [val_main_v26_apply, val_main_cst_1_apply, Ideal.ofBits_def, Ideal.ofBits_zero_f32, zero_add]
  unfold Cert.Spec.rowSum
  exact Finset.sum_congr rfl fun k _ => by rw [hi, adj1]

/-- The row sums broadcast over twelve columns. -/
theorem rsb1 (b : Fin 4096) (c : Fin 12) :
    val_main_v28 (F := Ideal) x1 (ix2 b c) = Cert.Spec.rowSum x1 b (1 : Fin 3) := by
  rw [val_main_v28_apply, val_main_v27_apply, ← rs1]
  congr 1
  funext a
  match a with
  | ⟨0, _⟩ => rfl

end step1

/-! ## Step 2 -/

section step2

variable (x0 : (⟨S4096x3x36, .f32⟩ : BufTy).Contents (Elt Ideal)) (x1 : (⟨S4096x4096x3, .f32⟩ : BufTy).Contents (Elt Ideal))
  (x2 : (⟨S36x6, .f32⟩ : BufTy).Contents (Elt Ideal)) (x3 : (⟨S6, .f32⟩ : BufTy).Contents (Elt Ideal))

/-- The step's adjacency slice at (b, j) is a[b, j, 2]. -/
theorem adj2 (b j : Fin 4096) : val_main_v32 (F := Ideal) x1 (ix2 b j) = x1 (ix3 b j (2 : Fin 3)) := by
  rw [val_main_v32_apply, val_main_v31_apply]
  congr 1
  funext a
  match a with
  | ⟨0, _⟩ => exact Fin.ext (by show (b.val * 4096 + j.val) / 4096 = b.val; have := j.isLt; omega)
  | ⟨1, _⟩ => exact Fin.ext (by show (b.val * 4096 + j.val) / 1 % 4096 = j.val; have := j.isLt; omega)
  | ⟨2, _⟩ => exact Fin.ext (by show 2 + 0 = 2; rfl)

/-- The step's observation slice at (j, f) is vis[j, 2, f]. -/
theorem vis2 (j : Fin 4096) (f : Fin 36) : val_main_v34 (F := Ideal) x0 (ix2 j f) = x0 (ix3 j (2 : Fin 3) f) := by
  rw [val_main_v34_apply, val_main_v33_apply]
  congr 1
  funext a
  match a with
  | ⟨0, _⟩ => exact Fin.ext (by show (j.val * 36 + f.val) / 36 = j.val; have := f.isLt; omega)
  | ⟨1, _⟩ => exact Fin.ext (by show 2 + 0 = 2; rfl)
  | ⟨2, _⟩ => exact Fin.ext (by show (j.val * 36 + f.val) % 36 = f.val; have := f.isLt; omega)

/-- The bias broadcast over the agents at (j, v) is bv[v]. -/
theorem bias2 (j : Fin 4096) (v : Fin 6) : val_main_v37 (F := Ideal) x3 (ix2 j v) = x3 (ix1 v) := by
  rw [val_main_v37_apply, val_main_v36_apply]
  congr 1
  funext a
  match a with
  | ⟨0, _⟩ => rfl

/-- The step's projected observations. -/
theorem proj2 (j : Fin 4096) (v : Fin 6) :
    val_main_v38 (F := Ideal) x0 x2 x3 (ix2 j v) = Cert.Spec.proj x0 x2 x3 j (2 : Fin 3) v := by
  have hl : ∀ k : Fin 36, lidx_main_v35 (ix2 j v) k = ix2 j k := fun k =>
    funext fun a => by match a with | ⟨0, _⟩ => rfl | ⟨1, _⟩ => rfl
  have hr : ∀ k : Fin 36, ridx_main_v35 (ix2 j v) k = ix2 k v := fun k =>
    funext fun a => by match a with | ⟨0, _⟩ => rfl | ⟨1, _⟩ => rfl
  rw [val_main_v38_apply, val_main_v35_apply, bias2, Ideal.addf_def]
  unfold Cert.Spec.proj
  congr 1
  exact Finset.sum_congr rfl fun k _ => by rw [hl, hr, vis2]

/-- The step's message. -/
theorem msg2 (b : Fin 4096) (v : Fin 6) :
    val_main_v39 (F := Ideal) x0 x1 x2 x3 (ix2 b v) =
      Cert.Spec.msg x1 (Cert.Spec.proj x0 x2 x3) b (2 : Fin 3) v := by
  have hl : ∀ k : Fin 4096, lidx_main_v39 (ix2 b v) k = ix2 b k := fun k =>
    funext fun a => by match a with | ⟨0, _⟩ => rfl | ⟨1, _⟩ => rfl
  have hr : ∀ k : Fin 4096, ridx_main_v39 (ix2 b v) k = ix2 k v := fun k =>
    funext fun a => by match a with | ⟨0, _⟩ => rfl | ⟨1, _⟩ => rfl
  rw [val_main_v39_apply]
  unfold Cert.Spec.msg
  exact Finset.sum_congr rfl fun k _ => by rw [hl, hr, adj2, proj2]

/-- The step's row sums: the sum starts from the zero word, which is 0. -/
theorem rs2 (b : Fin 4096) : val_main_v41 (F := Ideal) x1 (ix1 b) = Cert.Spec.rowSum x1 b (2 : Fin 3) := by
  have hi : ∀ k : Fin 4096, idx_main_v41 (ix1 b) k = ix2 b k := fun k =>
    funext fun a => by match a with | ⟨0, _⟩ => rfl | ⟨1, _⟩ => rfl
  rw [val_main_v41_apply, val_main_cst_2_apply, Ideal.ofBits_def, Ideal.ofBits_zero_f32, zero_add]
  unfold Cert.Spec.rowSum
  exact Finset.sum_congr rfl fun k _ => by rw [hi, adj2]

/-- The row sums broadcast over twelve columns. -/
theorem rsb2 (b : Fin 4096) (c : Fin 12) :
    val_main_v43 (F := Ideal) x1 (ix2 b c) = Cert.Spec.rowSum x1 b (2 : Fin 3) := by
  rw [val_main_v43_apply, val_main_v42_apply, ← rs2]
  congr 1
  funext a
  match a with
  | ⟨0, _⟩ => rfl

end step2

/-! ## The aggregate, column group by column group -/

section aggregate

variable (x0 : (⟨S4096x3x36, .f32⟩ : BufTy).Contents (Elt Ideal)) (x1 : (⟨S4096x4096x3, .f32⟩ : BufTy).Contents (Elt Ideal))
  (x2 : (⟨S36x6, .f32⟩ : BufTy).Contents (Elt Ideal)) (x3 : (⟨S6, .f32⟩ : BufTy).Contents (Elt Ideal))

/-- After step 0 the first six columns hold the step's message. -/
theorem agg0_new (b : Fin 4096) (c : Fin 18) (v : Fin 6) (hv : c.val = v.val) :
    val_main_v15 (F := Ideal) x0 x1 x2 x3 (ix2 b c) =
      Cert.Spec.msg x1 (Cert.Spec.proj x0 x2 x3) b (0 : Fin 3) v := by
  unfold val_main_v15
  rw [cat_left _ _ _ b c v hv]
  exact msg0 x0 x1 x2 x3 b v

/-- The first twelve columns of the aggregate after step 0, as step 1 reads them. -/
theorem keep0 (b : Fin 4096) (c' : Fin 12) (c : Fin 18) (hc : c.val = c'.val) :
    val_main_v25 (F := Ideal) x0 x1 x2 x3 (ix2 b c') = val_main_v15 (F := Ideal) x0 x1 x2 x3 (ix2 b c) := by
  rw [val_main_v25_apply]
  congr 1
  funext a
  match a with
  | ⟨0, _⟩ => rfl
  | ⟨1, _⟩ => exact Fin.ext hc.symm

/-- After step 1 the first six columns hold the step's message. -/
theorem agg1_new (b : Fin 4096) (c : Fin 18) (v : Fin 6) (hv : c.val = v.val) :
    val_main_v30 (F := Ideal) x0 x1 x2 x3 (ix2 b c) =
      Cert.Spec.msg x1 (Cert.Spec.proj x0 x2 x3) b (1 : Fin 3) v := by
  unfold val_main_v30
  rw [cat_left _ _ _ b c v hv]
  exact msg1 x0 x1 x2 x3 b v

/-- After step 1 columns six to eleven hold step 0's message scaled by step 1's row sum. -/
theorem agg1_old (b : Fin 4096) (c : Fin 18) (v : Fin 6) (hv : c.val = v.val + 6) :
    val_main_v30 (F := Ideal) x0 x1 x2 x3 (ix2 b c) =
      Cert.Spec.msg x1 (Cert.Spec.proj x0 x2 x3) b (0 : Fin 3) v * Cert.Spec.rowSum x1 b (1 : Fin 3) := by
  unfold val_main_v30
  rw [cat_right _ _ _ b c ⟨v.val, by have := v.isLt; omega⟩ (by show v.val + 6 = c.val; omega)]
  rw [val_main_v29_apply, Ideal.mulf_def, rsb1,
    keep0 x0 x1 x2 x3 b ⟨v.val, by have := v.isLt; omega⟩ ⟨v.val, by have := v.isLt; omega⟩ rfl,
    agg0_new x0 x1 x2 x3 b ⟨v.val, by have := v.isLt; omega⟩ v rfl]

/-- The first twelve columns of the aggregate after step 1, as step 2 reads them. -/
theorem keep1 (b : Fin 4096) (c' : Fin 12) (c : Fin 18) (hc : c.val = c'.val) :
    val_main_v40 (F := Ideal) x0 x1 x2 x3 (ix2 b c') = val_main_v30 (F := Ideal) x0 x1 x2 x3 (ix2 b c) := by
  rw [val_main_v40_apply]
  congr 1
  funext a
  match a with
  | ⟨0, _⟩ => rfl
  | ⟨1, _⟩ => exact Fin.ext hc.symm

/-- After step 2 the first six columns hold the step's message. -/
theorem agg2_new (b : Fin 4096) (c : Fin 18) (v : Fin 6) (hv : c.val = v.val) :
    val_main_v45 (F := Ideal) x0 x1 x2 x3 (ix2 b c) =
      Cert.Spec.msg x1 (Cert.Spec.proj x0 x2 x3) b (2 : Fin 3) v := by
  unfold val_main_v45
  rw [cat_left _ _ _ b c v hv]
  exact msg2 x0 x1 x2 x3 b v

/-- After step 2 columns six to eleven hold step 1's message scaled by step 2's row sum. -/
theorem agg2_mid (b : Fin 4096) (c : Fin 18) (v : Fin 6) (hv : c.val = v.val + 6) :
    val_main_v45 (F := Ideal) x0 x1 x2 x3 (ix2 b c) =
      Cert.Spec.msg x1 (Cert.Spec.proj x0 x2 x3) b (1 : Fin 3) v * Cert.Spec.rowSum x1 b (2 : Fin 3) := by
  unfold val_main_v45
  rw [cat_right _ _ _ b c ⟨v.val, by have := v.isLt; omega⟩ (by show v.val + 6 = c.val; omega)]
  rw [val_main_v44_apply, Ideal.mulf_def, rsb2,
    keep1 x0 x1 x2 x3 b ⟨v.val, by have := v.isLt; omega⟩ ⟨v.val, by have := v.isLt; omega⟩ rfl,
    agg1_new x0 x1 x2 x3 b ⟨v.val, by have := v.isLt; omega⟩ v rfl]

/-- After step 2 columns twelve to seventeen hold step 0's message scaled by the row sums of steps 1 and 2. -/
theorem agg2_old (b : Fin 4096) (c : Fin 18) (v : Fin 6) (hv : c.val = v.val + 12) :
    val_main_v45 (F := Ideal) x0 x1 x2 x3 (ix2 b c) =
      Cert.Spec.msg x1 (Cert.Spec.proj x0 x2 x3) b (0 : Fin 3) v * Cert.Spec.rowSum x1 b (1 : Fin 3)
        * Cert.Spec.rowSum x1 b (2 : Fin 3) := by
  unfold val_main_v45
  rw [cat_right _ _ _ b c ⟨v.val + 6, by have := v.isLt; omega⟩ (by show v.val + 6 + 6 = c.val; omega)]
  rw [val_main_v44_apply, Ideal.mulf_def, rsb2,
    keep1 x0 x1 x2 x3 b ⟨v.val + 6, by have := v.isLt; omega⟩ ⟨v.val + 6, by have := v.isLt; omega⟩ rfl,
    agg1_old x0 x1 x2 x3 b ⟨v.val + 6, by have := v.isLt; omega⟩ v rfl]

/-- Every column of the first result. -/
theorem agg_col (b : Fin 4096) (c : Fin 18) :
    val_main_v45 (F := Ideal) x0 x1 x2 x3 (ix2 b c) = Cert.Spec.agg x1 (Cert.Spec.proj x0 x2 x3) b c := by
  unfold Cert.Spec.agg
  split_ifs with h h'
  · exact agg2_new x0 x1 x2 x3 b c ⟨c.val, h⟩ rfl
  · exact agg2_mid x0 x1 x2 x3 b c ⟨c.val - 6, by omega⟩ (by show c.val = c.val - 6 + 6; omega)
  · exact agg2_old x0 x1 x2 x3 b c ⟨c.val - 12, by have := c.isLt; omega⟩ (by show c.val = c.val - 12 + 12; omega)

end aggregate

/-- The reference's first result is the aggregate of the specification. -/
theorem ref_agg (x0 : (⟨S4096x3x36, .f32⟩ : BufTy).Contents (Elt Ideal)) (x1 : (⟨S4096x4096x3, .f32⟩ : BufTy).Contents (Elt Ideal))
    (x2 : (⟨S36x6, .f32⟩ : BufTy).Contents (Elt Ideal)) (x3 : (⟨S6, .f32⟩ : BufTy).Contents (Elt Ideal)) :
    val_main_v45 (F := Ideal) x0 x1 x2 x3 = Cert.Spec.aggAll x0 x1 x2 x3 := by
  funext i
  obtain ⟨b, c, rfl⟩ : ∃ (b : Fin 4096) (c : Fin 18), i = ix2 b c := ⟨i 0, i 1, eq_ix2 i⟩
  exact agg_col x0 x1 x2 x3 b c

/-! ## The four dense layers -/

section layers

variable (x0 : (⟨S4096x3x36, .f32⟩ : BufTy).Contents (Elt Ideal)) (x1 : (⟨S4096x4096x3, .f32⟩ : BufTy).Contents (Elt Ideal))
    (x2 : (⟨S36x6, .f32⟩ : BufTy).Contents (Elt Ideal)) (x3 : (⟨S6, .f32⟩ : BufTy).Contents (Elt Ideal))
    (x4 : (⟨S18x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x2, .f32⟩ : BufTy).Contents (Elt Ideal)) (x11 : (⟨S2, .f32⟩ : BufTy).Contents (Elt Ideal))

/-- The first dense layer before its rectifier, at agent `b` and output `n`. -/
theorem lay0 (b : Fin 4096) (n : Fin 256) :
    val_main_v49 (F := Ideal) x0 x1 x2 x3 x4 x5 (ix2 b n) =
      Cert.Spec.dense (fun k n => x4 (ix2 k n)) (fun n => x5 (ix1 n)) (fun c => Cert.Spec.agg x1 (Cert.Spec.proj x0 x2 x3) b c) n := by
  have hl : ∀ k : Fin 18, lidx_main_v46 (ix2 b n) k = ix2 b k := fun k =>
    funext fun a => by match a with | ⟨0, _⟩ => rfl | ⟨1, _⟩ => rfl
  have hr : ∀ k : Fin 18, ridx_main_v46 (ix2 b n) k = ix2 k n := fun k =>
    funext fun a => by match a with | ⟨0, _⟩ => rfl | ⟨1, _⟩ => rfl
  have hb : idx_main_v47 (idx_main_v48 (ix2 b n)) = ix1 n :=
    funext fun a => by match a with | ⟨0, _⟩ => rfl
  rw [val_main_v49_apply, val_main_v46_apply, val_main_v48_apply, val_main_v47_apply, hb, Ideal.addf_def]
  unfold Cert.Spec.dense
  congr 1
  exact Finset.sum_congr rfl fun k _ => by rw [hl, hr, agg_col]

/-- The first hidden row of agent `b`: the layer's output through the rectifier. -/
def hid0 (x0 : (⟨S4096x3x36, .f32⟩ : BufTy).Contents (Elt Ideal)) (x1 : (⟨S4096x4096x3, .f32⟩ : BufTy).Contents (Elt Ideal))
    (x2 : (⟨S36x6, .f32⟩ : BufTy).Contents (Elt Ideal)) (x3 : (⟨S6, .f32⟩ : BufTy).Contents (Elt Ideal))
    (x4 : (⟨S18x256, .f32⟩ : BufTy).Contents (Elt Ideal)) (x5 : (⟨S256, .f32⟩ : BufTy).Contents (Elt Ideal))
    (b : Fin 4096) : Fin 256 → EReal :=
  fun n => Cert.Spec.relu (Cert.Spec.dense (fun k n => x4 (ix2 k n)) (fun n => x5 (ix1 n)) (fun c => Cert.Spec.agg x1 (Cert.Spec.proj x0 x2 x3) b c) n)

/-- The rectifier is the maximum with the zero word, which is 0. -/
theorem act0 (b : Fin 4096) (n : Fin 256) :
    val_main_v50 (F := Ideal) x0 x1 x2 x3 x4 x5 (ix2 b n) = hid0 x0 x1 x2 x3 x4 x5 b n := by
  rw [val_main_v50_apply, val_main_call0_v0_apply, val_main_call0_cst_apply, Ideal.maximumf_def,
    Ideal.ofBits_def, Ideal.ofBits_zero_f32, lay0]
  rfl

/-- The second dense layer before its rectifier, at agent `b` and output `n`. -/
theorem lay1 (b : Fin 4096) (n : Fin 256) :
    val_main_v54 (F := Ideal) x0 x1 x2 x3 x4 x5 x6 x7 (ix2 b n) =
      Cert.Spec.dense (fun k n => x6 (ix2 k n)) (fun n => x7 (ix1 n)) (hid0 x0 x1 x2 x3 x4 x5 b) n := by
  have hl : ∀ k : Fin 256, lidx_main_v51 (ix2 b n) k = ix2 b k := fun k =>
    funext fun a => by match a with | ⟨0, _⟩ => rfl | ⟨1, _⟩ => rfl
  have hr : ∀ k : Fin 256, ridx_main_v51 (ix2 b n) k = ix2 k n := fun k =>
    funext fun a => by match a with | ⟨0, _⟩ => rfl | ⟨1, _⟩ => rfl
  have hb : idx_main_v52 (idx_main_v53 (ix2 b n)) = ix1 n :=
    funext fun a => by match a with | ⟨0, _⟩ => rfl
  rw [val_main_v54_apply, val_main_v51_apply, val_main_v53_apply, val_main_v52_apply, hb, Ideal.addf_def]
  unfold Cert.Spec.dense
  congr 1
  exact Finset.sum_congr rfl fun k _ => by rw [hl, hr, act0]

/-- The second hidden row of agent `b`: the layer's output through the rectifier. -/
def hid1 (x0 : (⟨S4096x3x36, .f32⟩ : BufTy).Contents (Elt Ideal)) (x1 : (⟨S4096x4096x3, .f32⟩ : BufTy).Contents (Elt Ideal))
    (x2 : (⟨S36x6, .f32⟩ : BufTy).Contents (Elt Ideal)) (x3 : (⟨S6, .f32⟩ : BufTy).Contents (Elt Ideal))
    (x4 : (⟨S18x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (b : Fin 4096) : Fin 256 → EReal :=
  fun n => Cert.Spec.relu (Cert.Spec.dense (fun k n => x6 (ix2 k n)) (fun n => x7 (ix1 n)) (hid0 x0 x1 x2 x3 x4 x5 b) n)

/-- The rectifier is the maximum with the zero word, which is 0. -/
theorem act1 (b : Fin 4096) (n : Fin 256) :
    val_main_v55 (F := Ideal) x0 x1 x2 x3 x4 x5 x6 x7 (ix2 b n) = hid1 x0 x1 x2 x3 x4 x5 x6 x7 b n := by
  rw [val_main_v55_apply, val_main_call1_v0_apply, val_main_call1_cst_apply, Ideal.maximumf_def,
    Ideal.ofBits_def, Ideal.ofBits_zero_f32, lay1]
  rfl

/-- The third dense layer before its rectifier, at agent `b` and output `n`. -/
theorem lay2 (b : Fin 4096) (n : Fin 256) :
    val_main_v59 (F := Ideal) x0 x1 x2 x3 x4 x5 x6 x7 x8 x9 (ix2 b n) =
      Cert.Spec.dense (fun k n => x8 (ix2 k n)) (fun n => x9 (ix1 n)) (hid1 x0 x1 x2 x3 x4 x5 x6 x7 b) n := by
  have hl : ∀ k : Fin 256, lidx_main_v56 (ix2 b n) k = ix2 b k := fun k =>
    funext fun a => by match a with | ⟨0, _⟩ => rfl | ⟨1, _⟩ => rfl
  have hr : ∀ k : Fin 256, ridx_main_v56 (ix2 b n) k = ix2 k n := fun k =>
    funext fun a => by match a with | ⟨0, _⟩ => rfl | ⟨1, _⟩ => rfl
  have hb : idx_main_v57 (idx_main_v58 (ix2 b n)) = ix1 n :=
    funext fun a => by match a with | ⟨0, _⟩ => rfl
  rw [val_main_v59_apply, val_main_v56_apply, val_main_v58_apply, val_main_v57_apply, hb, Ideal.addf_def]
  unfold Cert.Spec.dense
  congr 1
  exact Finset.sum_congr rfl fun k _ => by rw [hl, hr, act1]

/-- The third hidden row of agent `b`: the layer's output through the rectifier. -/
def hid2 (x0 : (⟨S4096x3x36, .f32⟩ : BufTy).Contents (Elt Ideal)) (x1 : (⟨S4096x4096x3, .f32⟩ : BufTy).Contents (Elt Ideal))
    (x2 : (⟨S36x6, .f32⟩ : BufTy).Contents (Elt Ideal)) (x3 : (⟨S6, .f32⟩ : BufTy).Contents (Elt Ideal))
    (x4 : (⟨S18x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (b : Fin 4096) : Fin 256 → EReal :=
  fun n => Cert.Spec.relu (Cert.Spec.dense (fun k n => x8 (ix2 k n)) (fun n => x9 (ix1 n)) (hid1 x0 x1 x2 x3 x4 x5 x6 x7 b) n)

/-- The rectifier is the maximum with the zero word, which is 0. -/
theorem act2 (b : Fin 4096) (n : Fin 256) :
    val_main_v60 (F := Ideal) x0 x1 x2 x3 x4 x5 x6 x7 x8 x9 (ix2 b n) = hid2 x0 x1 x2 x3 x4 x5 x6 x7 x8 x9 b n := by
  rw [val_main_v60_apply, val_main_call2_v0_apply, val_main_call2_cst_apply, Ideal.maximumf_def,
    Ideal.ofBits_def, Ideal.ofBits_zero_f32, lay2]
  rfl

/-- The last dense layer before its rectifier, at agent `b` and output `n`. -/
theorem lay3 (b : Fin 4096) (n : Fin 2) :
    val_main_v64 (F := Ideal) x0 x1 x2 x3 x4 x5 x6 x7 x8 x9 x10 x11 (ix2 b n) =
      Cert.Spec.dense (fun k n => x10 (ix2 k n)) (fun n => x11 (ix1 n)) (hid2 x0 x1 x2 x3 x4 x5 x6 x7 x8 x9 b) n := by
  have hl : ∀ k : Fin 256, lidx_main_v61 (ix2 b n) k = ix2 b k := fun k =>
    funext fun a => by match a with | ⟨0, _⟩ => rfl | ⟨1, _⟩ => rfl
  have hr : ∀ k : Fin 256, ridx_main_v61 (ix2 b n) k = ix2 k n := fun k =>
    funext fun a => by match a with | ⟨0, _⟩ => rfl | ⟨1, _⟩ => rfl
  have hb : idx_main_v62 (idx_main_v63 (ix2 b n)) = ix1 n :=
    funext fun a => by match a with | ⟨0, _⟩ => rfl
  rw [val_main_v64_apply, val_main_v61_apply, val_main_v63_apply, val_main_v62_apply, hb, Ideal.addf_def]
  unfold Cert.Spec.dense
  congr 1
  exact Finset.sum_congr rfl fun k _ => by rw [hl, hr, act2]

end layers

/-- The reference's second result is the four layers of the specification on every agent's aggregate. -/
theorem ref_out (x0 : (⟨S4096x3x36, .f32⟩ : BufTy).Contents (Elt Ideal)) (x1 : (⟨S4096x4096x3, .f32⟩ : BufTy).Contents (Elt Ideal))
    (x2 : (⟨S36x6, .f32⟩ : BufTy).Contents (Elt Ideal)) (x3 : (⟨S6, .f32⟩ : BufTy).Contents (Elt Ideal))
    (x4 : (⟨S18x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x2, .f32⟩ : BufTy).Contents (Elt Ideal)) (x11 : (⟨S2, .f32⟩ : BufTy).Contents (Elt Ideal)) :
    val_main_v64 (F := Ideal) x0 x1 x2 x3 x4 x5 x6 x7 x8 x9 x10 x11 = Cert.Spec.outAll x0 x1 x2 x3 x4 x5 x6 x7 x8 x9 x10 x11 := by
  funext i
  obtain ⟨b, o, rfl⟩ : ∃ (b : Fin 4096) (o : Fin 2), i = ix2 b o := ⟨i 0, i 1, eq_ix2 i⟩
  rw [lay3]
  rfl

end Cert.RefValue

end
-- ==== Proof.lean ====
/-
  The certificate of the message-passing kernel against its reference.

  Both programs compute, for 4096 agents over three steps, the aggregate
      [ msg 2 | msg 1 · rs 2 | (msg 0 · rs 1) · rs 2 ],   msg t = A_t · X_t,   rs t = the row sums of A_t,
  X_t the projected observations of step t, and then three dense layers with a rectifier and one without on every agent's
  aggregate. The reference does it step by step on whole arrays. The kernel flattens the (agent, step) axes of the adjacency
  into one axis of 12288 positions and contracts it ONCE against a 21-row selector that carries X on the diagonal of the
  3 × 3 identity (18 rows) and the identity itself (3 rows); it works on 128 agents per grid point.

  Over the extended reals the two are one function: a change of float format is the identity, a product into a zero
  accumulator is the plain sum, the sum over the 12288 positions is the double sum over agents and steps, and against the
  identity's entries (x · 0 = 0 and x · 1 = x for every extended real x) the inner sum keeps one step. Nothing here needs
  the inputs to be finite. The modules: Spec (the two results written once), Collapse (the sum identities), MatmulAt (a
  product read by coordinates), Payload (what the body stores, for any block contents), HostArrays (the arrays the host
  operations build, read at an index), KernelValue (the blocks tile the results: the kernel's run), RefValue (the
  reference's stages are the same functions).
-/
import proofs.«167796_j25305947308075_1_alg».proof.Defs
import proofs.«167796_j25305947308075_1_alg».proof.Proof.Gen.Kernel
import proofs.«167796_j25305947308075_1_alg».proof.Proof.Gen.Kernel.Skeleton
import proofs.«167796_j25305947308075_1_alg».proof.Proof.Gen.Kernel.Launch
import proofs.«167796_j25305947308075_1_alg».proof.Proof.Gen.Kernel.Points
import proofs.«167796_j25305947308075_1_alg».proof.Proof.Gen.Kernel.Frame
import proofs.«167796_j25305947308075_1_alg».proof.Proof.Gen.KernelIdeal
import proofs.«167796_j25305947308075_1_alg».proof.Proof.Gen.KernelIdeal.Skeleton
import proofs.«167796_j25305947308075_1_alg».proof.Proof.Gen.KernelIdeal.Launch
import proofs.«167796_j25305947308075_1_alg».proof.Proof.Gen.KernelIdeal.Points
import proofs.«167796_j25305947308075_1_alg».proof.Proof.Gen.KernelIdeal.Frame
import proofs.«167796_j25305947308075_1_alg».proof.Proof.Gen.ReferenceIdeal
import proofs.«167796_j25305947308075_1_alg».proof.Proof.Gen.Pre_finite_inputs
import proofs.«167796_j25305947308075_1_alg».proof.Proof.Gen.KernelIdeal.Value
import proofs.«167796_j25305947308075_1_alg».proof.Proof.RefRun
import proofs.«167796_j25305947308075_1_alg».proof.Proof.RefRead
import proofs.«167796_j25305947308075_1_alg».proof.Proof.KernelValue
import proofs.«167796_j25305947308075_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- Both programs end with the specification's two arrays of arguments that agree. -/
theorem algebraic : Cert.algebraic_KernelIdeal_ReferenceIdeal := by
  intro m ρ m' ρ' _ hagree
  refine ⟨fun c => Cert.KernelValue.specAgg m c, fun c => Cert.KernelValue.specOut m c, Cert.KernelValue.run m ρ, ?_⟩
  refine (θ_run Cert.ReferenceIdeal.defs _ _).mono (fun _ h c => ⟨?_, ?_, (h c).2.2⟩)
    (Cert.ReferenceIdeal.ValueP.run (F := Ideal) m' ρ')
  · obtain ⟨a0, a1, a2, a3, -⟩ := hagree c
    rw [(h c).1, Cert.ReferenceIdeal.ReadP.val_main_v45_eq, Cert.RefValue.ref_agg, a0, a1, a2, a3]
  · obtain ⟨a0, a1, a2, a3, a4, a5, a6, a7, a8, a9, a10, a11⟩ := hagree c
    rw [(h c).2.1, Cert.ReferenceIdeal.ReadP.val_main_v64_eq, Cert.RefValue.ref_out, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
